-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40x128 .f32) (main_arg10 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40x128 .f32 := Host.absf main_arg9
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S40x128 .f32) (main_arg9 : FVec F S40x128 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S40x128 .f32) (main_arg9 : FVec F S40x128 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S128x40 : Shape := ⟨2, ![128, 40]⟩
abbrev S1x128 : Shape := ⟨2, ![1, 128]⟩
abbrev S1x40 : Shape := ⟨2, ![1, 40]⟩
abbrev S800000x128 : Shape := ⟨2, ![800000, 128]⟩
abbrev S5000x128 : Shape := ⟨2, ![5000, 128]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 85
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S40x128, .f32⟩
  | .hbm, ⟨9, _⟩ => ⟨S40x128, .f32⟩
  | .hbm, ⟨10, _⟩ => ⟨S40, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S100000, .f32⟩
  | .hbm, ⟨19, _⟩ => ⟨S800000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x40, .f32⟩
  | .hbm, ⟨33, _⟩ => ⟨S128x40, .f32⟩
  | .hbm, ⟨34, _⟩ => ⟨S1x128, .f32⟩
  | .hbm, ⟨35, _⟩ => ⟨S1x128, .f32⟩
  | .hbm, ⟨36, _⟩ => ⟨S1x40, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S100000x128, .f32⟩
  | .hbm, ⟨64, _⟩ => ⟨S800000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S100000x128, .f32⟩
  | .hbm, ⟨80, _⟩ => ⟨S800000x1, .i32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S128x40, .f32⟩
  | .local _ .vmem, ⟨24, _⟩ => ⟨S1x40, .f32⟩
  | .local _ .vmem, ⟨25, _⟩ => ⟨S5000x40, .f32⟩
  | .local _ .vmem, ⟨26, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  transposes_S128x128_S128x128_1_0 : S128x128.Transposes [1, 0] S128x128
  transposes_S40x128_S128x40_1_0 : S40x128.Transposes [1, 0] S128x40
  shapeCasts_S128_S1x128 : S128.ShapeCasts S1x128
  shapeCasts_S40_S1x40 : S40.ShapeCasts S1x40
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S40x128, .f32⟩
  | 9 => ⟨S40x128, .f32⟩
  | 10 => ⟨S40, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S100000x128, .f32⟩
  | 26 => ⟨S800000x1, .i32⟩
  | 27 => ⟨S100000x128, .f32⟩
  | 28 => ⟨S_, .f32⟩
  | 29 => ⟨S800000, .f32⟩
  | 30 => ⟨S_, .f32⟩
  | 31 => ⟨S100000, .f32⟩
  | 32 => ⟨S800000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S128x128, .f32⟩
  | 41 => ⟨S100000x128, .f32⟩
  | 42 => ⟨S128x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S_, .f32⟩
  | 65 => ⟨S800000, .f32⟩
  | 66 => ⟨S_, .f32⟩
  | 67 => ⟨S100000, .f32⟩
  | 68 => ⟨S800000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S128x128, .f32⟩
  | 77 => ⟨S100000x128, .f32⟩
  | 78 => ⟨S128x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S100000x128, .f32⟩
  | 98 => ⟨S800000x1, .i32⟩
  | 99 => ⟨S100000x128, .f32⟩
  | 100 => ⟨S_, .f32⟩
  | 101 => ⟨S800000, .f32⟩
  | 102 => ⟨S_, .f32⟩
  | 103 => ⟨S100000, .f32⟩
  | 104 => ⟨S800000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S128x40, .f32⟩
  | 113 => ⟨S100000x40, .f32⟩
  | 114 => ⟨S128x40, .f32⟩
  | 115 => ⟨S100000x40, .f32⟩
  | 116 => ⟨S100000x40, .f32⟩
  | 117 => ⟨S1x40, .f32⟩
  | 118 => ⟨S100000x40, .f32⟩
  | 119 => ⟨S100000x40, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000, .f32⟩
  | 3 => ⟨S100000x1, .f32⟩
  | 4 => ⟨S100000x1, .f32⟩
  | 5 => ⟨S100000x40, .f32⟩
  | 6 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_call2_cst_0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_cst_1 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_v87 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibTwoInputDense.lean ====
import Idealize.ShloMosaic.PureOps.Ideal.Laws
import Idealize.ShloMosaic.Lib.ValueIdx
import Idealize.ShloMosaic.Lib.ValueLayout
import Idealize.ShloMosaic.Lib.Pipeline.Value
import proofs.«157311_j63359357550605_1_alg».proof.Proof.LibPlainMatmul
import proofs.«157311_j63359357550605_1_alg».proof.Proof.LibRowReduce
import proofs.«157311_j63359357550605_1_alg».proof.Proof.LibKeepdims

/-!
# A dense layer on two row inputs, rectified or followed by a row-wise log-softmax, read at one entry

A layer sends row `r` of two `R × K` arrays `A` (an aggregate of neighbours) and `X` (the node's own features) to the
`N` numbers `Σₖ A (r, k) · Wl (k, q) + Σₖ X (r, k) · Wr (k, q) + b q`, the weights stored `K × N` and the bias as a
`1 × N` row. A hidden layer clamps each number below by zero; an output layer subtracts from each row its maximum and
then the logarithm of the sum of the exponentials of the shifted row. Here the layer is stated once entry by entry
(`preAt`, `relu0`, `logSoftmaxRow`), and two ways of computing it are read at one entry: on a block of `M` rows, as a
matrix unit does (two products into zero accumulators, the bias row repeated down the block, lane reductions along a
row kept as a column), and on whole arrays, as a host program does (two `dot_general`s, the bias vector laid out as a
row and repeated, reductions with an initial value). Both are the entry-by-entry form; no law of the extended reals
is used beyond `0 + x = x` and `max ⊥ x = x`.
-/

noncomputable section

open scoped BigOperators

namespace Idealize.ShloMosaic.TwoInputDense

open Idealize.ShloMosaic Idealize.ShloMosaic.ValueIdx

/-! ## The layer entry by entry -/

/-- The pre-activation at `(r, q)`: the neighbour term, the root term, the bias. -/
def preAt {R K N : Nat} (A X : (⟨2, ![R, K]⟩ : Shape).Idx → EReal) (Wl Wr : (⟨2, ![K, N]⟩ : Shape).Idx → EReal)
    (b : (⟨2, ![1, N]⟩ : Shape).Idx → EReal) (r : Fin R) (q : Fin N) : EReal :=
  (∑ k : Fin K, A (ix2 r k) * Wl (ix2 k q)) + (∑ k : Fin K, X (ix2 r k) * Wr (ix2 k q)) + b (ix2 (0 : Fin 1) q)

/-- The pre-activation at `(r, q)` reads row `r` of the two inputs only: inputs of any numbers of rows that agree on
    that row give the same number. -/
theorem preAt_congr {R R' K N : Nat} (A X : (⟨2, ![R, K]⟩ : Shape).Idx → EReal)
    (A' X' : (⟨2, ![R', K]⟩ : Shape).Idx → EReal) (Wl Wr Wl' Wr' : (⟨2, ![K, N]⟩ : Shape).Idx → EReal)
    (b b' : (⟨2, ![1, N]⟩ : Shape).Idx → EReal) (r : Fin R) (r' : Fin R') (q : Fin N)
    (hA : ∀ k : Fin K, A (ix2 r k) = A' (ix2 r' k)) (hX : ∀ k : Fin K, X (ix2 r k) = X' (ix2 r' k))
    (hl : Wl = Wl') (hr : Wr = Wr') (hb : b = b') :
    preAt A X Wl Wr b r q = preAt A' X' Wl' Wr' b' r' q := by
  subst hl hr hb
  unfold preAt
  refine congrArg (· + _) (congrArg₂ (· + ·) (Finset.sum_congr rfl fun k _ => ?_) (Finset.sum_congr rfl fun k _ => ?_))
  · rw [hA k]
  · rw [hX k]

/-- A number clamped below by the float zero. -/
def relu0 (v : EReal) : EReal := max v (Ideal.ofBits .f32 0x00000000#32)

/-- The maximum of a row, taken from minus infinity. -/
def rowMax {N : Nat} (z : Fin N → EReal) : EReal :=
  (Finset.univ : Finset (Fin N)).fold max (Ideal.ofBits .f32 0xFF800000#32) z

/-- Entry `q` of the log-softmax of a row: the entry less the row's maximum, less the logarithm of the sum of the
    exponentials of the row so shifted. -/
def logSoftmaxRow {N : Nat} (z : Fin N → EReal) (q : Fin N) : EReal :=
  (z q - rowMax z) - Ideal.log (∑ k : Fin N, Ideal.exp (z k - rowMax z))

/-- A hidden layer as one array: every pre-activation clamped below by zero. -/
def hidden {R K N : Nat} (A X : (⟨2, ![R, K]⟩ : Shape).Idx → EReal) (Wl Wr : (⟨2, ![K, N]⟩ : Shape).Idx → EReal)
    (b : (⟨2, ![1, N]⟩ : Shape).Idx → EReal) : (⟨2, ![R, N]⟩ : Shape).Idx → EReal :=
  fun i => relu0 (preAt A X Wl Wr b (i 0) (i 1))

/-- An output layer as one array: the log-softmax of every row of pre-activations. -/
def output {R K N : Nat} (A X : (⟨2, ![R, K]⟩ : Shape).Idx → EReal) (Wl Wr : (⟨2, ![K, N]⟩ : Shape).Idx → EReal)
    (b : (⟨2, ![1, N]⟩ : Shape).Idx → EReal) : (⟨2, ![R, N]⟩ : Shape).Idx → EReal :=
  fun i => logSoftmaxRow (fun q => preAt A X Wl Wr b (i 0) q) (i 1)

theorem hidden_apply {R K N : Nat} (A X : (⟨2, ![R, K]⟩ : Shape).Idx → EReal) (Wl Wr : (⟨2, ![K, N]⟩ : Shape).Idx → EReal)
    (b : (⟨2, ![1, N]⟩ : Shape).Idx → EReal) (r : Fin R) (q : Fin N) :
    hidden A X Wl Wr b (ix2 r q) = relu0 (preAt A X Wl Wr b r q) := rfl

theorem output_apply {R K N : Nat} (A X : (⟨2, ![R, K]⟩ : Shape).Idx → EReal) (Wl Wr : (⟨2, ![K, N]⟩ : Shape).Idx → EReal)
    (b : (⟨2, ![1, N]⟩ : Shape).Idx → EReal) (r : Fin R) (q : Fin N) :
    output A X Wl Wr b (ix2 r q) = logSoftmaxRow (fun k => preAt A X Wl Wr b r k) q := rfl

/-! ## Layout steps read at an index -/

/-- A column `[n, 1]` repeated along the rows reads, at `(r, q)`, the column at `(r, 0)`. -/
theorem colRepeat_apply {α : Type} {n d : ℕ} (v : (⟨2, ![n, 1]⟩ : Shape).Idx → α)
    (h2 : (⟨2, ![n, 1]⟩ : Shape).BroadcastsInDim ⟨2, ![n, d]⟩ ![0, 1]) (r : Fin n) (q : Fin d) :
    broadcastInDim ⟨2, ![n, d]⟩ ![0, 1] h2 v (ix2 r q) = v (ix2 r (0 : Fin 1)) := by
  refine broadcastInDim_apply ![0, 1] h2 _ (ix2 r q) (ix2 r (0 : Fin 1)) fun a => ?_
  match a with
  | ⟨0, _⟩ =>
    show r.val = if n = 1 then 0 else r.val
    split
    · have := r.isLt; omega
    · rfl
  | ⟨1, _⟩ =>
    show 0 = if (1 : ℕ) = 1 then 0 else q.val
    rw [if_pos rfl]

/-- A vector laid out as a column (`[n] → [n, 1]` along axis 0) reads, at `(r, 0)`, the vector at `r`. -/
theorem asColumn_apply {α : Type} {n : ℕ} (v : (⟨1, ![n]⟩ : Shape).Idx → α)
    (h1 : (⟨1, ![n]⟩ : Shape).BroadcastsInDim ⟨2, ![n, 1]⟩ ![0]) (r : Fin n) :
    broadcastInDim ⟨2, ![n, 1]⟩ ![0] h1 v (ix2 r (0 : Fin 1)) = v (ix1 r) := by
  refine broadcastInDim_apply ![0] h1 v (ix2 r (0 : Fin 1)) (ix1 r) fun a => ?_
  match a with
  | ⟨0, _⟩ =>
    show r.val = if n = 1 then 0 else r.val
    split
    · have := r.isLt; omega
    · rfl

/-- A vector laid out as a row (`[n] → [1, n]` along axis 1) and repeated down `R` rows reads, at `(r, q)`, the vector
    at `q`. -/
theorem rowDown_apply {α : Type} {R n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![R, n]⟩ ![0, 1]) (r : Fin R) (q : Fin n) :
    broadcastInDim ⟨2, ![R, n]⟩ ![0, 1] h2 (broadcastInDim ⟨2, ![1, n]⟩ ![1] h1 v) (ix2 r q) = v (ix1 q) := by
  refine (broadcastInDim_apply ![0, 1] h2 _ (ix2 r q) (ix2 (0 : Fin 1) q) fun a => ?_).trans
    (broadcastInDim_apply ![1] h1 v (ix2 (0 : Fin 1) q) (ix1 q) fun a => ?_)
  · match a with
    | ⟨0, _⟩ =>
      show 0 = if (1 : ℕ) = 1 then 0 else r.val
      rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A vector reshaped to a one-row array reads, at `(0, q)`, the vector at `q`. -/
theorem asRow_apply {α : Type} {n : ℕ} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) :=
  shapeCast_apply v h _ _ (by
    rw [Shape.rowMajor_val_two, Shape.rowMajor_val_one]
    show q.val = 0 * n + q.val
    rw [Nat.zero_mul, Nat.zero_add])

/-! ## A host `dot_general` with plain dimension numbers, read at one entry -/

/-- The host's product of an `M × K` by a `K × N` matrix, at `(r, n)`: the sum over `k` of `lhs (r, k) · rhs (k, n)`. -/
theorem dotGeneral_plain_apply (M K N : Nat) {φ₁ φ₂ : FTy} (prec : Option ContractPrecision) (sched : HostSchedule)
    (lhs : FVec Ideal ⟨2, ![M, K]⟩ φ₁) (rhs : FVec Ideal ⟨2, ![K, N]⟩ φ₂) (r : Fin M) (n : Fin N) :
    FloatOps.dotGeneral (DotDims.plain M K N) prec sched lhs rhs (ix2 r n)
      = ∑ k : Fin K, lhs (ix2 r k) * rhs (ix2 k n) := by
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact PlainMatmul.lhs_plain_0 M K N _ _
    | ⟨1, _⟩ => exact (PlainMatmul.lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (PlainMatmul.rhs_plain_0 M K N _ _).trans hk
    | ⟨1, _⟩ => exact PlainMatmul.rhs_plain_1 M K N _ _)
  rw [el, er]

/-! ## The pre-activation, on a block and on whole arrays -/

/-- On a block of `M` rows: two products into zero accumulators and the bias row repeated down the block. -/
theorem blockPre_apply (M K N : Nat) (a x : FVec Ideal ⟨2, ![M, K]⟩ .f32) (wl wr : FVec Ideal ⟨2, ![K, N]⟩ .f32)
    (b : FVec Ideal ⟨2, ![1, N]⟩ .f32) (hbc : (⟨2, ![1, N]⟩ : Shape).Broadcasts ⟨2, ![M, N]⟩) (p : Fin M) (q : Fin N) :
    addf (addf (matmul (DotDims.plain M K N) none a wl (constant ⟨2, ![M, N]⟩ .f32 0x00000000#32))
        (matmul (DotDims.plain M K N) none x wr (constant ⟨2, ![M, N]⟩ .f32 0x00000000#32)))
      (broadcastTo ⟨2, ![M, N]⟩ b hbc) (ix2 p q) = preAt a x wl wr b p q := by
  show (FloatOps.matmul (DotDims.plain M K N) none a wl (constant ⟨2, ![M, N]⟩ .f32 0x00000000#32) (ix2 p q)
    + FloatOps.matmul (DotDims.plain M K N) none x wr (constant ⟨2, ![M, N]⟩ .f32 0x00000000#32) (ix2 p q))
    + broadcastTo ⟨2, ![M, N]⟩ b hbc (ix2 p q) = _
  rw [PlainMatmul.matmul_plain_zero_apply, PlainMatmul.matmul_plain_zero_apply, broadcastTo_1b_ab_apply]
  rfl

/-- On whole arrays: two host products and the bias vector laid out as a row and repeated down the rows; the row the
    entry-by-entry form takes is the bias vector reshaped to one row. -/
theorem hostPre_apply (R K N : Nat) (A X : FVec Ideal ⟨2, ![R, K]⟩ .f32) (Wl Wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1])
    (hsc : (⟨1, ![N]⟩ : Shape).ShapeCasts ⟨2, ![1, N]⟩) (r : Fin R) (q : Fin N) :
    addf (addf (Host.dotGeneral (DotDims.plain R K N) none A Wl) (Host.dotGeneral (DotDims.plain R K N) none X Wr))
      (broadcastInDim ⟨2, ![R, N]⟩ ![0, 1] h2 (broadcastInDim ⟨2, ![1, N]⟩ ![1] h1 b)) (ix2 r q)
      = preAt A X Wl Wr (shapeCast ⟨2, ![1, N]⟩ b hsc) r q := by
  show (FloatOps.dotGeneral (DotDims.plain R K N) none .single A Wl (ix2 r q)
    + FloatOps.dotGeneral (DotDims.plain R K N) none .single X Wr (ix2 r q))
    + broadcastInDim ⟨2, ![R, N]⟩ ![0, 1] h2 (broadcastInDim ⟨2, ![1, N]⟩ ![1] h1 b) (ix2 r q) = _
  rw [dotGeneral_plain_apply, dotGeneral_plain_apply, rowDown_apply]
  unfold preAt
  rw [asRow_apply]

/-! ## The rectified layer -/

/-- On a block: the maximum with the float zero repeated over the block. -/
theorem blockHidden_apply (M K N : Nat) (a x : FVec Ideal ⟨2, ![M, K]⟩ .f32) (wl wr : FVec Ideal ⟨2, ![K, N]⟩ .f32)
    (b : FVec Ideal ⟨2, ![1, N]⟩ .f32) (hbc : (⟨2, ![1, N]⟩ : Shape).Broadcasts ⟨2, ![M, N]⟩) (p : Fin M) (q : Fin N) :
    maximumf (addf (addf (matmul (DotDims.plain M K N) none a wl (constant ⟨2, ![M, N]⟩ .f32 0x00000000#32))
        (matmul (DotDims.plain M K N) none x wr (constant ⟨2, ![M, N]⟩ .f32 0x00000000#32)))
      (broadcastTo ⟨2, ![M, N]⟩ b hbc)) (broadcast ⟨2, ![M, N]⟩ (Scalar.ofBits .f32 0x00000000#32)) (ix2 p q)
      = relu0 (preAt a x wl wr b p q) := by
  rw [maximumf_apply, blockPre_apply]
  rfl

/-- On whole arrays: the maximum with the float zero as a scalar repeated over the array. -/
theorem hostHidden_eq (R K N : Nat) (A X : FVec Ideal ⟨2, ![R, K]⟩ .f32) (Wl Wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![])
    (hsc : (⟨1, ![N]⟩ : Shape).ShapeCasts ⟨2, ![1, N]⟩) :
    maximumf (addf (addf (Host.dotGeneral (DotDims.plain R K N) none A Wl) (Host.dotGeneral (DotDims.plain R K N) none X Wr))
        (broadcastInDim ⟨2, ![R, N]⟩ ![0, 1] h2 (broadcastInDim ⟨2, ![1, N]⟩ ![1] h1 b)))
      (broadcastInDim ⟨2, ![R, N]⟩ ![] h0 (constant ⟨0, ![]⟩ .f32 0x00000000#32))
      = hidden A X Wl Wr (shapeCast ⟨2, ![1, N]⟩ b hsc) := by
  funext i
  obtain ⟨r, q, rfl⟩ : ∃ (r : Fin R) (q : Fin N), i = ix2 r q := ⟨i 0, i 1, eq_ix2 i⟩
  rw [maximumf_apply, hostPre_apply R K N A X Wl Wr b h1 h2 hsc, hidden_apply]
  rfl

/-! ## The log-softmax of the rows -/

/-- On a block of `M` rows of `N` numbers: the lane maximum of each row kept as a column and repeated along the row, the
    shifted block's exponentials summed along each row, the logarithm of that column repeated along the row. -/
theorem blockLogSoftmax_apply (M N : Nat) (z : FVec Ideal ⟨2, ![M, N]⟩ .f32)
    (hred : (⟨2, ![M, N]⟩ : Shape).Reduces [1] (⟨1, ![M]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![M]⟩ : Shape).ShapeCasts ⟨2, ![M, 1]⟩) (hbc : (⟨2, ![M, 1]⟩ : Shape).Broadcasts ⟨2, ![M, N]⟩)
    (p : Fin M) (q : Fin N) :
    subf (subf z (broadcastTo ⟨2, ![M, N]⟩ (shapeCast ⟨2, ![M, 1]⟩
          (multiReduction .maximumf [1] ⟨1, ![M]⟩ z 0xFF800000#32 hred hφ hmax) hsc) hbc))
      (broadcastTo ⟨2, ![M, N]⟩ (log (shapeCast ⟨2, ![M, 1]⟩
          (multiReduction .add [1] ⟨1, ![M]⟩ (exp (subf z (broadcastTo ⟨2, ![M, N]⟩ (shapeCast ⟨2, ![M, 1]⟩
            (multiReduction .maximumf [1] ⟨1, ![M]⟩ z 0xFF800000#32 hred hφ hmax) hsc) hbc))) 0x00000000#32 hred hφ hadd)
          hsc)) hbc) (ix2 p q)
      = logSoftmaxRow (fun k => z (ix2 p k)) q := by
  have hm : ∀ k : Fin N, broadcastTo ⟨2, ![M, N]⟩ (shapeCast ⟨2, ![M, 1]⟩
      (multiReduction .maximumf [1] ⟨1, ![M]⟩ z 0xFF800000#32 hred hφ hmax) hsc) hbc (ix2 p k)
      = rowMax (fun k => z (ix2 p k)) := fun k => by
    rw [Cert.Keepdims.broadcastTo_a1_ab_apply, Cert.Keepdims.shapeCast_a_a1_apply, RowReduce.multiReduction_maximumf_row]
    rfl
  rw [subf_apply, subf_apply, hm q, Cert.Keepdims.broadcastTo_a1_ab_apply]
  show _ - Ideal.log (shapeCast ⟨2, ![M, 1]⟩ _ hsc (ix2 p (0 : Fin 1))) = _
  rw [Cert.Keepdims.shapeCast_a_a1_apply, RowReduce.multiReduction_add_row]
  unfold logSoftmaxRow
  refine congrArg (fun s => _ - Ideal.log s) (Finset.sum_congr rfl fun k _ => ?_)
  show Ideal.exp (subf z _ (ix2 p k)) = _
  rw [subf_apply, hm k]

/-- On whole arrays of `R` rows: the host's row maximum from minus infinity, joined once more with minus infinity, laid
    out as a column and repeated; the host's row sum from zero of the exponentials; the logarithm of that column
    repeated. -/
theorem hostLogSoftmax_eq (R N : Nat) (Z : FVec Ideal ⟨2, ![R, N]⟩ .f32)
    (h' : (⟨2, ![R, N]⟩ : Shape).ReducesTo [1] (⟨1, ![R]⟩ : Shape))
    (hred : (⟨2, ![R, N]⟩ : Shape).Reduces [1] (⟨1, ![R]⟩ : Shape)) (hu : 0 < (⟨0, ![]⟩ : Shape).numel)
    (h0 : (⟨0, ![]⟩ : Shape).BroadcastsInDim ⟨1, ![R]⟩ ![])
    (h1 : (⟨1, ![R]⟩ : Shape).BroadcastsInDim ⟨2, ![R, 1]⟩ ![0])
    (h2 : (⟨2, ![R, 1]⟩ : Shape).BroadcastsInDim ⟨2, ![R, N]⟩ ![0, 1]) :
    subf (subf Z (broadcastInDim ⟨2, ![R, N]⟩ ![0, 1] h2 (broadcastInDim ⟨2, ![R, 1]⟩ ![0] h1
          (maximumf (broadcastInDim ⟨1, ![R]⟩ ![] h0 (constant ⟨0, ![]⟩ .f32 0xFF800000#32))
            (Host.reduce FloatOps.maximumf Z (constant ⟨0, ![]⟩ .f32 0xFF800000#32) h' hu)))))
      (broadcastInDim ⟨2, ![R, N]⟩ ![0, 1] h2 (Host.log (broadcastInDim ⟨2, ![R, 1]⟩ ![0] h1
        (Host.reduceAdd (Host.exp (subf Z (broadcastInDim ⟨2, ![R, N]⟩ ![0, 1] h2 (broadcastInDim ⟨2, ![R, 1]⟩ ![0] h1
          (maximumf (broadcastInDim ⟨1, ![R]⟩ ![] h0 (constant ⟨0, ![]⟩ .f32 0xFF800000#32))
            (Host.reduce FloatOps.maximumf Z (constant ⟨0, ![]⟩ .f32 0xFF800000#32) h' hu))))))
          (constant ⟨0, ![]⟩ .f32 0x00000000#32) h' hu))))
      = fun i => logSoftmaxRow (fun k => Z (ix2 (i 0) k)) (i 1) := by
  funext i
  obtain ⟨r, q, rfl⟩ : ∃ (r : Fin R) (q : Fin N), i = ix2 r q := ⟨i 0, i 1, eq_ix2 i⟩
  have hm : ∀ k : Fin N, broadcastInDim ⟨2, ![R, N]⟩ ![0, 1] h2 (broadcastInDim ⟨2, ![R, 1]⟩ ![0] h1
      (maximumf (broadcastInDim ⟨1, ![R]⟩ ![] h0 (constant ⟨0, ![]⟩ .f32 0xFF800000#32))
        (Host.reduce FloatOps.maximumf Z (constant ⟨0, ![]⟩ .f32 0xFF800000#32) h' hu))) (ix2 r k)
      = rowMax (fun k => Z (ix2 r k)) := fun k => by
    rw [colRepeat_apply, asColumn_apply, maximumf_apply, RowReduce.hostReduce_maximumf_row Z _ h' hred hu r]
    exact RowReduce.max_negInf_fold _
  have hlog : ∀ (v : FVec Ideal ⟨2, ![R, 1]⟩ .f32) (i : (⟨2, ![R, 1]⟩ : Shape).Idx), Host.log v i = Ideal.log (v i) :=
    fun _ _ => rfl
  have hsum : ∀ x : FVec Ideal ⟨2, ![R, N]⟩ .f32,
      Host.reduceAdd x (constant ⟨0, ![]⟩ .f32 0x00000000#32) h' hu (ix1 r) = ∑ k : Fin N, x (ix2 r k) := fun x => by
    show Ideal.hostReduceAdd h' x (Ideal.ofBits .f32 0x00000000#32) (ix1 r) = _
    rw [RowReduce.hostReduceAdd_row x _ h' hred r, Ideal.ofBits_zero_f32, zero_add]
  rw [subf_apply, subf_apply, hm q, colRepeat_apply, hlog, asColumn_apply, hsum]
  show _ = logSoftmaxRow (fun k => Z (ix2 r k)) q
  unfold logSoftmaxRow
  refine congrArg (fun s => _ - Ideal.log s) (Finset.sum_congr rfl fun k _ => ?_)
  show Ideal.exp (subf Z _ (ix2 r k)) = _
  rw [subf_apply, hm k]

end Idealize.ShloMosaic.TwoInputDense

end
-- ==== Proof.LibSageLayer.lean ====
import Idealize.ShloMosaic.PureOps.Ideal.Laws
import Idealize.ShloMosaic.Lib.ValueIdx

/-!
# One mean-aggregating graph layer over the extended reals, read at one entry

A layer of a mean-aggregating graph network sends node `r` to
`(A r / d r) · Wₗ + b + X r · Wᵣ`: `A r` the sum of the neighbours' rows, `d r ≥ 1` the node's degree clamped below by one,
`X r` the node's own row. A kernel may instead scale the aggregated row by the reciprocal `1 / d r`, computed once per node
and kept as a column, and add the bias last. Over the extended reals the quotient by a non-zero `d` IS the product with
`d⁻¹` — also when `d` is infinite, where both are the product with zero — so the two forms agree entry by entry with no
finiteness assumption on the rows; the three summands only change places, and addition of extended reals is commutative
and associative.
-/

noncomputable section

namespace Idealize.ShloMosaic.SageLayer

open Idealize.ShloMosaic Idealize.ShloMosaic.ValueIdx

/-- Scaling by the reciprocal of a non-zero extended real is dividing by it. -/
theorem mul_div_one (a d : EReal) (hd : d ≠ 0) : a * Ideal.div 1 d = Ideal.div a d := by
  unfold Ideal.div
  rw [if_neg hd, if_neg hd, one_mul]

/-- A degree clamped below by one is not zero. -/
theorem max_one_ne_zero (x : EReal) : max x 1 ≠ 0 :=
  ne_of_gt (lt_of_lt_of_le zero_lt_one (le_max_right x 1))

/-- A vector clamped below, entry by entry, by a vector that is one at `i` is not zero at `i`. -/
theorem maximumf_ne_zero_of_one {s : Shape} (a b : FVec Ideal s .f32) (i : s.Idx) (hb : b i = 1) : maximumf a b i ≠ 0 := by
  rw [maximumf_apply, hb]
  exact max_one_ne_zero _

/-- The host's quotient of a vector that is one at `i` by `b` is, at `i`, one over `b i`. -/
theorem hostDivf_one_apply {s : Shape} (a b : FVec Ideal s .f32) (i : s.Idx) (ha : a i = 1) :
    Host.divf a b i = Ideal.div 1 (b i) := by
  show Ideal.div (a i) (b i) = _
  rw [ha]

/-- The float word `0x3F800000` is the number one. -/
theorem ofBits_one_f32 : Ideal.ofBits .f32 0x3F800000#32 = 1 := by
  simp [Ideal.ofBits, Ideal.ieee, -EReal.coe_mul]; norm_num

/-- Entry `(r, q)` of a layer as a kernel forms it: the aggregated row scaled by the node's reciprocal degree (a column)
    against the neighbour weights, plus the node's own row against the root weights, plus the bias (a row). -/
def scaledAt {n K N : Nat} (agg : (⟨2, ![n, K]⟩ : Shape).Idx → EReal) (inv : (⟨2, ![n, 1]⟩ : Shape).Idx → EReal)
    (root : (⟨2, ![n, K]⟩ : Shape).Idx → EReal) (wl : (⟨2, ![K, N]⟩ : Shape).Idx → EReal)
    (b : (⟨2, ![1, N]⟩ : Shape).Idx → EReal) (wr : (⟨2, ![K, N]⟩ : Shape).Idx → EReal) (r : Fin n) (q : Fin N) : EReal :=
  (∑ k : Fin K, (agg (ix2 r k) * inv (ix2 r (0 : Fin 1))) * wl (ix2 k q)) + (∑ k : Fin K, root (ix2 r k) * wr (ix2 k q))
    + b (ix2 (0 : Fin 1) q)

/-- An entry of the layer reads one row of the node arrays, one column of the weights and one bias entry: two families of
    arrays (of any numbers of rows) that agree there give the same entry. -/
theorem scaledAt_congr {n n' K N : Nat} (agg : (⟨2, ![n, K]⟩ : Shape).Idx → EReal) (inv : (⟨2, ![n, 1]⟩ : Shape).Idx → EReal)
    (root : (⟨2, ![n, K]⟩ : Shape).Idx → EReal) (wl : (⟨2, ![K, N]⟩ : Shape).Idx → EReal)
    (b : (⟨2, ![1, N]⟩ : Shape).Idx → EReal) (wr : (⟨2, ![K, N]⟩ : Shape).Idx → EReal)
    (agg' : (⟨2, ![n', K]⟩ : Shape).Idx → EReal) (inv' : (⟨2, ![n', 1]⟩ : Shape).Idx → EReal)
    (root' : (⟨2, ![n', K]⟩ : Shape).Idx → EReal) (wl' : (⟨2, ![K, N]⟩ : Shape).Idx → EReal)
    (b' : (⟨2, ![1, N]⟩ : Shape).Idx → EReal) (wr' : (⟨2, ![K, N]⟩ : Shape).Idx → EReal)
    (r : Fin n) (r' : Fin n') (q : Fin N)
    (hagg : ∀ k : Fin K, agg (ix2 r k) = agg' (ix2 r' k)) (hinv : inv (ix2 r (0 : Fin 1)) = inv' (ix2 r' (0 : Fin 1)))
    (hroot : ∀ k : Fin K, root (ix2 r k) = root' (ix2 r' k)) (hwl : ∀ k : Fin K, wl (ix2 k q) = wl' (ix2 k q))
    (hb : b (ix2 (0 : Fin 1) q) = b' (ix2 (0 : Fin 1) q)) (hwr : ∀ k : Fin K, wr (ix2 k q) = wr' (ix2 k q)) :
    scaledAt agg inv root wl b wr r q = scaledAt agg' inv' root' wl' b' wr' r' q := by
  unfold scaledAt
  rw [hinv, hb]
  refine congrArg (· + _) (congrArg₂ (· + ·) (Finset.sum_congr rfl fun k _ => ?_) (Finset.sum_congr rfl fun k _ => ?_))
  · rw [hagg k, hwl k]
  · rw [hroot k, hwr k]

/-- Entry `(r, q)` of a layer as the textbook writes it: the aggregated row divided by the clamped degree against the
    neighbour weights, plus the bias, plus the node's own row against the root weights. -/
def meanAt {n K N : Nat} (agg : (⟨2, ![n, K]⟩ : Shape).Idx → EReal) (d : (⟨1, ![n]⟩ : Shape).Idx → EReal)
    (root : (⟨2, ![n, K]⟩ : Shape).Idx → EReal) (wl : (⟨2, ![K, N]⟩ : Shape).Idx → EReal)
    (b : (⟨1, ![N]⟩ : Shape).Idx → EReal) (wr : (⟨2, ![K, N]⟩ : Shape).Idx → EReal) (r : Fin n) (q : Fin N) : EReal :=
  (∑ k : Fin K, Ideal.div (agg (ix2 r k)) (d (ix1 r)) * wl (ix2 k q)) + b (ix1 q) + ∑ k : Fin K, root (ix2 r k) * wr (ix2 k q)

/-- The two forms agree at `(r, q)` when the column holds the reciprocal of a non-zero degree at `r` and the bias row holds
    the bias vector at `q`. -/
theorem scaledAt_eq_meanAt {n K N : Nat} (agg : (⟨2, ![n, K]⟩ : Shape).Idx → EReal)
    (inv : (⟨2, ![n, 1]⟩ : Shape).Idx → EReal) (d : (⟨1, ![n]⟩ : Shape).Idx → EReal)
    (root : (⟨2, ![n, K]⟩ : Shape).Idx → EReal) (wl : (⟨2, ![K, N]⟩ : Shape).Idx → EReal)
    (b' : (⟨2, ![1, N]⟩ : Shape).Idx → EReal) (b : (⟨1, ![N]⟩ : Shape).Idx → EReal)
    (wr : (⟨2, ![K, N]⟩ : Shape).Idx → EReal) (r : Fin n) (q : Fin N)
    (hinv : inv (ix2 r (0 : Fin 1)) = Ideal.div 1 (d (ix1 r))) (hd : d (ix1 r) ≠ 0)
    (hb : b' (ix2 (0 : Fin 1) q) = b (ix1 q)) :
    scaledAt agg inv root wl b' wr r q = meanAt agg d root wl b wr r q := by
  unfold scaledAt meanAt
  rw [hinv, hb, add_right_comm]
  refine congrArg (· + _) (congrArg (· + _) (Finset.sum_congr rfl fun k _ => ?_))
  rw [mul_div_one _ _ hd]

end Idealize.ShloMosaic.SageLayer

end
-- ==== Proof.LibMeanScale.lean ====
import Idealize.ShloMosaic.PureOps.Ideal.Laws
import Idealize.ShloMosaic.Lib.ValueIdx
import Idealize.ShloMosaic.Lib.Pipeline.Value
import proofs.«157311_j63359357550605_1_alg».proof.Proof.LibSageLayer

/-!
# A mean over neighbours: scaling by the reciprocal degree is dividing by the degree, array by array

An `n × d` array of aggregated rows is turned into means either by multiplying row `r` with `1 / max (deg r) 1`, the
reciprocal computed once per node and then laid out as a column and repeated along the row, or by dividing row `r` by
`max (deg r) 1` laid out the same way. The clamped degree is never zero, so over the extended reals the two arrays are
equal entry by entry, with no finiteness assumption on the rows or on the degrees.
-/

noncomputable section

namespace Idealize.ShloMosaic.MeanScale

open Idealize.ShloMosaic Idealize.ShloMosaic.ValueIdx

/-- A vector laid out as a column (`[n] → [n, 1]` along axis 0) and repeated along the rows (`[n, 1] → [n, d]`) reads, at
    `(r, q)`, the vector at `r`. -/
theorem colAcross_apply {α : Type} {n d : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, d]⟩ ![0, 1]) (r : Fin n) (q : Fin d) :
    broadcastInDim ⟨2, ![n, d]⟩ ![0, 1] h2 (broadcastInDim ⟨2, ![n, 1]⟩ ![0] h1 v) (ix2 r q) = v (ix1 r) := by
  -- the outer step reads the column at `(r, 0)`, the inner step the vector at `r`; on an axis of extent one the
  -- coordinate read is `0`, which is `r` itself when `n = 1`
  refine (broadcastInDim_apply ![0, 1] h2 _ (ix2 r q) (ix2 r (0 : Fin 1)) fun a => ?_).trans
    (broadcastInDim_apply ![0] h1 v (ix2 r (0 : Fin 1)) (ix1 r) fun a => ?_)
  · match a with
    | ⟨0, _⟩ =>
      show r.val = if n = 1 then 0 else r.val
      split
      · have := r.isLt; omega
      · rfl
    | ⟨1, _⟩ =>
      show 0 = if (1 : ℕ) = 1 then 0 else q.val
      rw [if_pos rfl]
  · match a with
    | ⟨0, _⟩ =>
      show r.val = if n = 1 then 0 else r.val
      split
      · have := r.isLt; omega
      · rfl

/-- The array scaled by the reciprocals of the clamped degrees is the array divided by the clamped degrees; `one₁` and
    `one₂` are the two all-ones vectors the programs build. -/
theorem scaled_eq_divided {n d : ℕ} (A : FVec Ideal ⟨2, ![n, d]⟩ .f32) (deg one₁ one₂ : FVec Ideal ⟨1, ![n]⟩ .f32)
    (h1 : (⟨1, ![n]⟩ : Shape).BroadcastsInDim ⟨2, ![n, 1]⟩ ![0])
    (h2 : (⟨2, ![n, 1]⟩ : Shape).BroadcastsInDim ⟨2, ![n, d]⟩ ![0, 1])
    (hone₁ : ∀ i, one₁ i = 1) (hone₂ : ∀ i, one₂ i = 1) :
    mulf A (broadcastInDim ⟨2, ![n, d]⟩ ![0, 1] h2 (broadcastInDim ⟨2, ![n, 1]⟩ ![0] h1
        (Host.divf (F := Ideal) one₂ (maximumf deg one₁))))
      = Host.divf (F := Ideal) A (broadcastInDim ⟨2, ![n, d]⟩ ![0, 1] h2 (broadcastInDim ⟨2, ![n, 1]⟩ ![0] h1
        (maximumf deg one₁))) := by
  funext i
  obtain ⟨r, q, rfl⟩ : ∃ (r : Fin n) (q : Fin d), i = ix2 r q := ⟨i 0, i 1, eq_ix2 i⟩
  -- left: the entry times the reciprocal at `r`; right: the entry divided by the clamped degree at `r`
  rw [mulf_apply, colAcross_apply]
  show _ = Ideal.div (A (ix2 r q)) (broadcastInDim ⟨2, ![n, d]⟩ ![0, 1] h2 (broadcastInDim ⟨2, ![n, 1]⟩ ![0] h1
    (maximumf deg one₁)) (ix2 r q))
  rw [colAcross_apply, SageLayer.hostDivf_one_apply one₂ (maximumf deg one₁) (ix1 r) (hone₂ _)]
  exact SageLayer.mul_div_one _ _ (SageLayer.maximumf_ne_zero_of_one deg one₁ (ix1 r) (hone₁ _))

end Idealize.ShloMosaic.MeanScale

end
-- ==== Proof.Layers.lean ====
import proofs.«157311_j63359357550605_1_alg».proof.Proof.Gen.KernelIdeal
import proofs.«157311_j63359357550605_1_alg».proof.Proof.LibTwoInputDense
import proofs.«157311_j63359357550605_1_alg».proof.Proof.LibMeanScale

/-!
# The three mean-aggregating layers as functions of whole arrays

Each layer takes the node features `H` (100000 × 128), gathers the rows of the edges' sources, adds them onto the rows
of the edges' destinations, turns the sums into means with the degree clamped below by one, and applies a dense layer
to the mean and to `H` itself: clamped at zero for the two hidden layers, followed by a row-wise log-softmax for the
last. The kernel's program scales the sums by the reciprocal of the clamped degree, computed once; the reference divides
by the clamped degree in every layer. Over the extended reals the two means are one array (the clamped degree is never
zero), and each layer computed on blocks of rows is the layer computed on whole arrays.
-/

noncomputable section

namespace Cert.KernelIdeal.Layers

open Idealize.ShloMosaic Cert.KernelIdeal Cert.KernelIdeal.Gen

variable {F : FTy → Type} [FloatOps F]

/-! ## Side conditions of the whole-array forms -/

theorem bcast_S128_S1x128_1 : S128.BroadcastsInDim S1x128 (![1] : Fin 1 → Fin S1x128.rank) := by decide
theorem bcast_S1x128_S100000x128_0_1 : S1x128.BroadcastsInDim S100000x128 (![0, 1] : Fin 2 → Fin S100000x128.rank) := by decide
theorem bcast_S40_S1x40_1 : S40.BroadcastsInDim S1x40 (![1] : Fin 1 → Fin S1x40.rank) := by decide
theorem bcast_S1x40_S100000x40_0_1 : S1x40.BroadcastsInDim S100000x40 (![0, 1] : Fin 2 → Fin S100000x40.rank) := by decide
theorem bcast_S100000x1_S100000x40_0_1 : S100000x1.BroadcastsInDim S100000x40 (![0, 1] : Fin 2 → Fin S100000x40.rank) := by decide
theorem reducesTo_S100000x40_S100000_d1 : S100000x40.ReducesTo [1] S100000 := by decide
theorem reduces_S100000x40_S100000_d1 : S100000x40.Reduces [1] S100000 := by decide
theorem h_S_ : 0 < S_.numel := by decide

/-! ## The edge list -/

/-- The edges' sources: row 0 of the edge list. -/
def srcIds (ei : IVec S2x800000 32) : IVec S800000 32 :=
  shapeCast S800000 (extractStridedSlice S1x800000 ![0, 0] ei slices_S2x800000_S1x800000_0_0) shapeCasts_S1x800000_S800000

/-- The edges' destinations: row 1 of the edge list. -/
def dstIds (ei : IVec S2x800000 32) : IVec S800000 32 :=
  shapeCast S800000 (extractStridedSlice S1x800000 ![1, 0] ei slices_S2x800000_S1x800000_1_0) shapeCasts_S1x800000_S800000

/-- The sources as a column of start indices, a negative one counted from the end. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)

/-- The destinations as a column of scatter indices. -/
def dstCol (d : IVec S800000 32) : IVec S800000x1 32 := broadcastInDim S800000x1 ![0] bcast_S800000_S800000x1_0 d

/-! ## The aggregation -/

/-- For every node the sum of the rows of `H` at the sources of the edges that end in it. -/
def nbrSum (s d : IVec S800000 32) (H : FVec F S100000x128 .f32) : FVec F S100000x128 .f32 :=
  Host.scatterAdd scatter_S100000x128_S800000x1_S800000x128_1_0_0_1
    (broadcastInDim S100000x128 ![] bcast_S_S100000x128 (constant S_ .f32 0x00000000#32)) (dstCol d)
    (Host.gather gather_S100000x128_S800000x1_S800000x128_1_0_n_n_0_1_1128 H (srcCol s))

/-- The all-ones vector over the nodes. -/
def ones : FVec F S100000 .f32 := broadcastInDim S100000 ![] bcast_S_S100000 (constant S_ .f32 0x3F800000#32)

/-- For every node the number of edges that end in it. -/
def degree (d : IVec S800000 32) : FVec F S100000 .f32 :=
  Host.scatterAdd scatter_S100000_S800000x1_S800000_n_0_0_1
    (broadcastInDim S100000 ![] bcast_S_S100000 (constant S_ .f32 0x00000000#32)) (dstCol d)
    (broadcastInDim S800000 ![] bcast_S_S800000 (constant S_ .f32 0x3F800000#32))

/-- The reciprocal of the degree clamped below by one, as a column. -/
def invCol (d : IVec S800000 32) : FVec F S100000x1 .f32 :=
  broadcastInDim S100000x1 ![0] bcast_S100000_S100000x1_0 (Host.divf ones (maximumf (degree d) ones))

/-- The neighbours' mean as the kernel's program forms it: the sums scaled by the reciprocal column. -/
def aggScaled (s d : IVec S800000 32) (H : FVec F S100000x128 .f32) : FVec F S100000x128 .f32 :=
  mulf (nbrSum s d H) (broadcastInDim S100000x128 ![0, 1] bcast_S100000x1_S100000x128_0_1 (invCol d))

/-- The neighbours' mean as the reference forms it: the sums divided by the clamped degree. -/
def aggMean (s d : IVec S800000 32) (H : FVec F S100000x128 .f32) : FVec F S100000x128 .f32 :=
  Host.divf (nbrSum s d H) (broadcastInDim S100000x128 ![0, 1] bcast_S100000x1_S100000x128_0_1
    (broadcastInDim S100000x1 ![0] bcast_S100000_S100000x1_0 (maximumf (degree d) ones)))

theorem ones_apply (i : S100000.Idx) : ones (F := Ideal) i = 1 := SageLayer.ofBits_one_f32

/-- The two means are one array: the clamped degree is never zero. -/
theorem aggScaled_eq_aggMean (s d : IVec S800000 32) (H : FVec Ideal S100000x128 .f32) :
    aggScaled s d H = aggMean s d H :=
  MeanScale.scaled_eq_divided (nbrSum s d H) (degree d) ones ones bcast_S100000_S100000x1_0
    bcast_S100000x1_S100000x128_0_1 ones_apply ones_apply

/-! ## The layers on whole arrays, entry by entry -/

/-- A hidden layer's weights as the programs hand them to the product: transposed. -/
def tr128 (W : FVec F S128x128 .f32) : FVec F S128x128 .f32 := transpose S128x128 [1, 0] W transposes_S128x128_S128x128_1_0
/-- The output layer's weights, transposed. -/
def tr40 (W : FVec F S40x128 .f32) : FVec F S128x40 .f32 := transpose S128x40 [1, 0] W transposes_S40x128_S128x40_1_0
/-- A hidden layer's bias as a one-row array. -/
def row128 (b : FVec F S128 .f32) : FVec F S1x128 .f32 := shapeCast S1x128 b shapeCasts_S128_S1x128
/-- The output layer's bias as a one-row array. -/
def row40 (b : FVec F S40 .f32) : FVec F S1x40 .f32 := shapeCast S1x40 b shapeCasts_S40_S1x40

/-- A hidden layer: the dense layer of the neighbours' mean and the features, clamped at zero. -/
def layerHidden (s d : IVec S800000 32) (H : FVec Ideal S100000x128 .f32) (Wl Wr : FVec Ideal S128x128 .f32)
    (b : FVec Ideal S128 .f32) : FVec Ideal S100000x128 .f32 :=
  TwoInputDense.hidden (aggScaled s d H) H (tr128 Wl) (tr128 Wr) (row128 b)

/-- The output layer: the dense layer of the neighbours' mean and the features, then the log-softmax of each row. -/
def layerOut (s d : IVec S800000 32) (H : FVec Ideal S100000x128 .f32) (Wl Wr : FVec Ideal S40x128 .f32)
    (b : FVec Ideal S40 .f32) : FVec Ideal S100000x40 .f32 :=
  TwoInputDense.output (aggScaled s d H) H (tr40 Wl) (tr40 Wr) (row40 b)

/-- The network: two hidden layers and the output layer over one edge list. -/
def network (x : FVec Ideal S100000x128 .f32) (ei : IVec S2x800000 32) (Wl0 Wr0 : FVec Ideal S128x128 .f32)
    (b0 : FVec Ideal S128 .f32) (Wl1 Wr1 : FVec Ideal S128x128 .f32) (b1 : FVec Ideal S128 .f32)
    (Wl2 Wr2 : FVec Ideal S40x128 .f32) (b2 : FVec Ideal S40 .f32) : FVec Ideal S100000x40 .f32 :=
  layerOut (srcIds ei) (dstIds ei)
    (layerHidden (srcIds ei) (dstIds ei) (layerHidden (srcIds ei) (dstIds ei) x Wl0 Wr0 b0) Wl1 Wr1 b1) Wl2 Wr2 b2

/-! ## The layers as a host program writes them -/

/-- A hidden layer in whole-array operations: two products, the bias laid out and repeated, the maximum with zero. -/
def hostHidden (s d : IVec S800000 32) (H : FVec F S100000x128 .f32) (Wl Wr : FVec F S128x128 .f32)
    (b : FVec F S128 .f32) : FVec F S100000x128 .f32 :=
  maximumf
    (addf (addf (Host.dotGeneral (DotDims.plain 100000 128 128) none (aggMean s d H) (tr128 Wl))
        (Host.dotGeneral (DotDims.plain 100000 128 128) none H (tr128 Wr)))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The output layer's pre-activations in whole-array operations. -/
def hostLogits (s d : IVec S800000 32) (H : FVec F S100000x128 .f32) (Wl Wr : FVec F S40x128 .f32)
    (b : FVec F S40 .f32) : FVec F S100000x40 .f32 :=
  addf (addf (Host.dotGeneral (DotDims.plain 100000 128 40) none (aggMean s d H) (tr40 Wl))
      (Host.dotGeneral (DotDims.plain 100000 128 40) none H (tr40 Wr)))
    (broadcastInDim S100000x40 ![0, 1] bcast_S1x40_S100000x40_0_1 (broadcastInDim S1x40 ![1] bcast_S40_S1x40_1 b))

/-- The row maxima of an array of pre-activations as a host program forms them, repeated along the rows. -/
def hostRowMax (Z : FVec F S100000x40 .f32) : FVec F S100000x40 .f32 :=
  broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf Z (constant S_ .f32 0xFF800000#32) reducesTo_S100000x40_S100000_d1 h_S_)))

/-- The row-wise log-softmax in whole-array operations. -/
def hostLogSoftmax (Z : FVec F S100000x40 .f32) : FVec F S100000x40 .f32 :=
  subf (subf Z (hostRowMax Z))
    (broadcastInDim S100000x40 ![0, 1] bcast_S100000x1_S100000x40_0_1 (Host.log (broadcastInDim S100000x1 ![0] bcast_S100000_S100000x1_0
      (Host.reduceAdd (Host.exp (subf Z (hostRowMax Z))) (constant S_ .f32 0x00000000#32) reducesTo_S100000x40_S100000_d1 h_S_))))

/-- The network in whole-array operations, the mean taken by division in every layer. -/
def hostNetwork (x : FVec F S100000x128 .f32) (ei : IVec S2x800000 32) (Wl0 Wr0 : FVec F S128x128 .f32)
    (b0 : FVec F S128 .f32) (Wl1 Wr1 : FVec F S128x128 .f32) (b1 : FVec F S128 .f32)
    (Wl2 Wr2 : FVec F S40x128 .f32) (b2 : FVec F S40 .f32) : FVec F S100000x40 .f32 :=
  hostLogSoftmax (hostLogits (srcIds ei) (dstIds ei)
    (hostHidden (srcIds ei) (dstIds ei) (hostHidden (srcIds ei) (dstIds ei) x Wl0 Wr0 b0) Wl1 Wr1 b1) Wl2 Wr2 b2)

/-- A hidden layer written in whole-array operations is the layer entry by entry. -/
theorem hostHidden_eq (s d : IVec S800000 32) (H : FVec Ideal S100000x128 .f32) (Wl Wr : FVec Ideal S128x128 .f32)
    (b : FVec Ideal S128 .f32) : hostHidden s d H Wl Wr b = layerHidden s d H Wl Wr b := by
  unfold hostHidden layerHidden row128
  rw [aggScaled_eq_aggMean]
  exact TwoInputDense.hostHidden_eq 100000 128 128 (aggMean s d H) H (tr128 Wl) (tr128 Wr) b _ _ _ _

/-- The output layer written in whole-array operations is the layer entry by entry. -/
theorem hostOut_eq (s d : IVec S800000 32) (H : FVec Ideal S100000x128 .f32) (Wl Wr : FVec Ideal S40x128 .f32)
    (b : FVec Ideal S40 .f32) : hostLogSoftmax (hostLogits s d H Wl Wr b) = layerOut s d H Wl Wr b := by
  unfold hostLogSoftmax hostRowMax
  rw [TwoInputDense.hostLogSoftmax_eq 100000 40 (hostLogits s d H Wl Wr b) reducesTo_S100000x40_S100000_d1
    reduces_S100000x40_S100000_d1 h_S_ bcast_S_S100000 bcast_S100000_S100000x1_0 bcast_S100000x1_S100000x40_0_1]
  unfold layerOut row40
  rw [aggScaled_eq_aggMean]
  funext i
  show _ = TwoInputDense.logSoftmaxRow (fun q => TwoInputDense.preAt (aggMean s d H) H (tr40 Wl) (tr40 Wr)
    (shapeCast S1x40 b shapeCasts_S40_S1x40) (i 0) q) (i 1)
  refine congrArg (fun z => TwoInputDense.logSoftmaxRow z (i 1)) (funext fun k => ?_)
  exact TwoInputDense.hostPre_apply 100000 128 40 (aggMean s d H) H (tr40 Wl) (tr40 Wr) b _ _ _ (i 0) k

/-- The network written in whole-array operations is the network entry by entry. -/
theorem hostNetwork_eq (x : FVec Ideal S100000x128 .f32) (ei : IVec S2x800000 32) (Wl0 Wr0 : FVec Ideal S128x128 .f32)
    (b0 : FVec Ideal S128 .f32) (Wl1 Wr1 : FVec Ideal S128x128 .f32) (b1 : FVec Ideal S128 .f32)
    (Wl2 Wr2 : FVec Ideal S40x128 .f32) (b2 : FVec Ideal S40 .f32) :
    hostNetwork x ei Wl0 Wr0 b0 Wl1 Wr1 b1 Wl2 Wr2 b2 = network x ei Wl0 Wr0 b0 Wl1 Wr1 b1 Wl2 Wr2 b2 := by
  unfold hostNetwork network
  rw [hostOut_eq, hostHidden_eq, hostHidden_eq]

end Cert.KernelIdeal.Layers

end
-- ==== Proof.KStretch.lean ====
import proofs.«157311_j63359357550605_1_alg».proof.Proof.Gen.KernelIdeal.Launch
import proofs.«157311_j63359357550605_1_alg».proof.Proof.Layers
import Idealize.ShloMosaic.Lib.StableHlo.Run

/-!
# The kernel program's three stretches of host operations, read from the contents they start from

Before each kernel the program runs a stretch of whole-array operations. The first computes, from the arguments, the
edge list's two rows, the reciprocal of the clamped degree as a column, the six transposed weight matrices, the three
bias rows and the first layer's aggregate; the second and the third compute the next layer's aggregate from the
previous layer's result and the rows and the column the first stretch left. Each result is stated for any contents
`W` the stretch starts from, as the whole-array function of the buffers it reads; a buffer a stretch does not write
keeps its contents.
-/

set_option maxRecDepth 8192

noncomputable section

namespace Cert.KernelIdeal.KStretch

open Cert.KernelIdeal Cert.KernelIdeal.Gen Cert.KernelIdeal.Layers
open Idealize.ShloMosaic Idealize.ShloMosaic.TcCoe Idealize.SL.Sem Idealize.ShloMosaic.StableHlo

variable (W : Valuation τ sig (Elt Ideal))

/-! ## The first stretch -/

theorem s0_v1 : after (hostOps0 (F := Ideal)) W (Proc.devRef .tc main_v1) = srcIds (W (Proc.devRef .tc main_arg1)) := by
  after_results_simp
  rfl

theorem s0_v3 : after (hostOps0 (F := Ideal)) W (Proc.devRef .tc main_v3) = dstIds (W (Proc.devRef .tc main_arg1)) := by
  after_results_simp
  rfl

theorem s0_v12 : after (hostOps0 (F := Ideal)) W (Proc.devRef .tc main_v12) = invCol (F := Ideal) (dstIds (W (Proc.devRef .tc main_arg1))) := by
  after_results_simp
  rfl

theorem s0_v13 : after (hostOps0 (F := Ideal)) W (Proc.devRef .tc main_v13) = tr128 (F := Ideal) (W (Proc.devRef .tc main_arg2)) := by
  after_results_simp
  rfl

theorem s0_v14 : after (hostOps0 (F := Ideal)) W (Proc.devRef .tc main_v14) = tr128 (F := Ideal) (W (Proc.devRef .tc main_arg3)) := by
  after_results_simp
  rfl

theorem s0_v15 : after (hostOps0 (F := Ideal)) W (Proc.devRef .tc main_v15) = tr128 (F := Ideal) (W (Proc.devRef .tc main_arg5)) := by
  after_results_simp
  rfl

theorem s0_v16 : after (hostOps0 (F := Ideal)) W (Proc.devRef .tc main_v16) = tr128 (F := Ideal) (W (Proc.devRef .tc main_arg6)) := by
  after_results_simp
  rfl

theorem s0_v17 : after (hostOps0 (F := Ideal)) W (Proc.devRef .tc main_v17) = tr40 (F := Ideal) (W (Proc.devRef .tc main_arg8)) := by
  after_results_simp
  rfl

theorem s0_v18 : after (hostOps0 (F := Ideal)) W (Proc.devRef .tc main_v18) = tr40 (F := Ideal) (W (Proc.devRef .tc main_arg9)) := by
  after_results_simp
  rfl

theorem s0_v19 : after (hostOps0 (F := Ideal)) W (Proc.devRef .tc main_v19) = row128 (F := Ideal) (W (Proc.devRef .tc main_arg4)) := by
  after_results_simp
  rfl

theorem s0_v20 : after (hostOps0 (F := Ideal)) W (Proc.devRef .tc main_v20) = row128 (F := Ideal) (W (Proc.devRef .tc main_arg7)) := by
  after_results_simp
  rfl

theorem s0_v21 : after (hostOps0 (F := Ideal)) W (Proc.devRef .tc main_v21) = row40 (F := Ideal) (W (Proc.devRef .tc main_arg10)) := by
  after_results_simp
  rfl

/-- The first layer's aggregate: the neighbours' sums of the features, scaled by the reciprocal column. -/
theorem s0_v33 : after (hostOps0 (F := Ideal)) W (Proc.devRef .tc main_v33)
    = aggScaled (F := Ideal) (srcIds (W (Proc.devRef .tc main_arg1))) (dstIds (W (Proc.devRef .tc main_arg1))) (W (Proc.devRef .tc main_arg0)) := by
  after_results_simp
  rfl

theorem s0_keep_arg0 : after (hostOps0 (F := Ideal)) W (Proc.devRef .tc main_arg0) = W (Proc.devRef .tc main_arg0) := by
  after_results_simp

/-! ## The second stretch -/

/-- The second layer's aggregate: the neighbours' sums of the first layer's result, scaled by the column. -/
theorem s1_v46 : after (hostOps1 (F := Ideal)) W (Proc.devRef .tc main_v46)
    = mulf (nbrSum (F := Ideal) (W (Proc.devRef .tc main_v1)) (W (Proc.devRef .tc main_v3)) (W (Proc.devRef .tc main_v34)))
        (broadcastInDim S100000x128 ![0, 1] bcast_S100000x1_S100000x128_0_1 (W (Proc.devRef .tc main_v12))) := by
  after_results_simp
  rfl

theorem s1_keep_v34 : after (hostOps1 (F := Ideal)) W (Proc.devRef .tc main_v34) = W (Proc.devRef .tc main_v34) := by
  after_results_simp

theorem s1_keep_v15 : after (hostOps1 (F := Ideal)) W (Proc.devRef .tc main_v15) = W (Proc.devRef .tc main_v15) := by
  after_results_simp

theorem s1_keep_v16 : after (hostOps1 (F := Ideal)) W (Proc.devRef .tc main_v16) = W (Proc.devRef .tc main_v16) := by
  after_results_simp

theorem s1_keep_v20 : after (hostOps1 (F := Ideal)) W (Proc.devRef .tc main_v20) = W (Proc.devRef .tc main_v20) := by
  after_results_simp

theorem s1_keep_v1 : after (hostOps1 (F := Ideal)) W (Proc.devRef .tc main_v1) = W (Proc.devRef .tc main_v1) := by
  after_results_simp

theorem s1_keep_v3 : after (hostOps1 (F := Ideal)) W (Proc.devRef .tc main_v3) = W (Proc.devRef .tc main_v3) := by
  after_results_simp

theorem s1_keep_v12 : after (hostOps1 (F := Ideal)) W (Proc.devRef .tc main_v12) = W (Proc.devRef .tc main_v12) := by
  after_results_simp

theorem s1_keep_v17 : after (hostOps1 (F := Ideal)) W (Proc.devRef .tc main_v17) = W (Proc.devRef .tc main_v17) := by
  after_results_simp

theorem s1_keep_v18 : after (hostOps1 (F := Ideal)) W (Proc.devRef .tc main_v18) = W (Proc.devRef .tc main_v18) := by
  after_results_simp

theorem s1_keep_v21 : after (hostOps1 (F := Ideal)) W (Proc.devRef .tc main_v21) = W (Proc.devRef .tc main_v21) := by
  after_results_simp

/-! ## The third stretch -/

/-- The output layer's aggregate: the neighbours' sums of the second layer's result, scaled by the column. -/
theorem s2_v59 : after (hostOps2 (F := Ideal)) W (Proc.devRef .tc main_v59)
    = mulf (nbrSum (F := Ideal) (W (Proc.devRef .tc main_v1)) (W (Proc.devRef .tc main_v3)) (W (Proc.devRef .tc main_v47)))
        (broadcastInDim S100000x128 ![0, 1] bcast_S100000x1_S100000x128_0_1 (W (Proc.devRef .tc main_v12))) := by
  after_results_simp
  rfl

theorem s2_keep_v47 : after (hostOps2 (F := Ideal)) W (Proc.devRef .tc main_v47) = W (Proc.devRef .tc main_v47) := by
  after_results_simp

theorem s2_keep_v17 : after (hostOps2 (F := Ideal)) W (Proc.devRef .tc main_v17) = W (Proc.devRef .tc main_v17) := by
  after_results_simp

theorem s2_keep_v18 : after (hostOps2 (F := Ideal)) W (Proc.devRef .tc main_v18) = W (Proc.devRef .tc main_v18) := by
  after_results_simp

theorem s2_keep_v21 : after (hostOps2 (F := Ideal)) W (Proc.devRef .tc main_v21) = W (Proc.devRef .tc main_v21) := by
  after_results_simp

end Cert.KernelIdeal.KStretch

end
-- ==== Proof.Region0.lean ====
import proofs.«157311_j63359357550605_1_alg».proof.Proof.Gen.KernelIdeal.Frame
import proofs.«157311_j63359357550605_1_alg».proof.Proof.LibTwoInputDense
import Idealize.ShloMosaic.Lib.Pipeline.Value
import Idealize.ShloMosaic.Lib.Tactic

/-!
# The first hidden layer's kernel: the array its twenty row blocks leave

The kernel is launched at twenty grid points. At point `t` it reads rows `5000 t … 5000 t + 4999` of the aggregated
neighbour array and of the node features, the whole of the two transposed weight matrices and of the bias row, and
writes rows `5000 t … 5000 t + 4999` of the result: on that block of rows the two products, the bias and the clamp at
zero. An entry of the layer reads one row of the two inputs, so block `t` of the result is block `t` of the layer
computed on the whole arrays; the twenty blocks tile the hundred thousand rows, so the result array ends holding the
layer of the whole arrays, whatever the contents the kernel is entered with.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Idealize.ShloMosaic.TwoInputDense

variable (V : (c : Dev nD) → (b : Ref sig .tc) → Buf (Elt Ideal) ((c : Thread nD τ).loc b))

theorem hz : (![0, 0] : Fin 2 → Nat) = fun _ => 0 := funext fun a => by fin_cases a <;> rfl

/-- The block indices over the twenty points: the two row inputs and the result move with the point along the rows; the
    weights and the bias are the one block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's stored value at `(p, q)`: the clamped pre-activation of row `p` of its two row blocks. -/
theorem pay_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q) = relu0 (preAt x0 x1 x2 x3 x4 p q) := by
  unfold k0_pay1
  simp only [shapeCast_self]
  exact blockHidden_apply 5000 128 128 x0 x1 x2 x3 x4 _ p q

/-- The aggregated neighbours' block at point `t` is rows `5000 t …` of their array. -/
theorem iblk_agg (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c main_v33 : S100000x128.Idx → Elt Ideal .f32) k := by
  obtain ⟨e0, e1, -⟩ := idx_facts t
  unfold iblk0
  rw [View.read_apply]
  show V c main_v33 _ = V c main_v33 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The node features' block at point `t` is rows `5000 t …` of their array. -/
theorem iblk_root (c : Dev nD) (t : Fin cfg0.N) (x : S5000x128.Idx) (k : S100000x128.Idx)
    (hk0 : (k 0).val = t.val * 5000 + (x 0).val) (hk1 : (k 1).val = (x 1).val) :
    (iblk0 V c 1 t : Vec Ideal S5000x128 .f32) x = (V c main_arg0 : S100000x128.Idx → Elt Ideal .f32) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- The neighbour weights' one block is their whole array. -/
theorem iblk_wl (c : Dev nD) (t : Fin cfg0.N) :
    (iblk0 V c 2 t : Vec Ideal S128x128 .f32) = (V c main_v13 : S128x128.Idx → Elt Ideal .f32) := by
  obtain ⟨-, -, -, -, e0, e1, -⟩ := idx_facts t
  funext x
  unfold iblk0
  rw [View.read_apply]
  show V c main_v13 _ = V c main_v13 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The root weights' one block is their whole array. -/
theorem iblk_wr (c : Dev nD) (t : Fin cfg0.N) :
    (iblk0 V c 3 t : Vec Ideal S128x128 .f32) = (V c main_v14 : S128x128.Idx → Elt Ideal .f32) := by
  obtain ⟨-, -, -, -, -, -, e0, e1, -⟩ := idx_facts t
  funext x
  unfold iblk0
  rw [View.read_apply]
  show V c main_v14 _ = V c main_v14 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The bias row's one block is the whole row. -/
theorem iblk_b (c : Dev nD) (t : Fin cfg0.N) :
    (iblk0 V c 4 t : Vec Ideal S1x128 .f32) = (V c main_v19 : S1x128.Idx → Elt Ideal .f32) := by
  obtain ⟨-, -, -, -, -, -, -, -, e0, e1, -⟩ := idx_facts t
  funext x
  unfold iblk0
  rw [View.read_apply]
  show V c main_v19 _ = V c main_v19 _
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- What point `t` stores at `(p, q)` of its block is the layer of the whole arrays at row `5000 t + p`, column `q`. -/
theorem block_apply (c : Dev nD) (t : Fin cfg0.N) (p : Fin 5000) (q : Fin 128) (r : Fin 100000)
    (hr : r.val = t.val * 5000 + p.val) :
    k0_pay1 (iblk0 V c 0 t) (iblk0 V c 1 t) (iblk0 V c 2 t) (iblk0 V c 3 t) (iblk0 V c 4 t) (ix2 p q)
      = hidden (V c main_v33) (V c main_arg0) (V c main_v13) (V c main_v14) (V c main_v19) (ix2 r q) := by
  refine (pay_apply (iblk0 V c 0 t) (iblk0 V c 1 t) (iblk0 V c 2 t) (iblk0 V c 3 t) (iblk0 V c 4 t) p q).trans ?_
  rw [hidden_apply]
  refine congrArg relu0 (preAt_congr _ _ _ _ _ _ _ _ _ _ p r q (fun k => ?_) (fun k => ?_)
    (iblk_wl V c t) (iblk_wr V c t) (iblk_b V c t))
  · exact iblk_agg V c t (ix2 p k) (ix2 r k) hr rfl
  · exact iblk_root V c t (ix2 p k) (ix2 r k) hr rfl

/-- WHAT POINT `t` WRITES BACK is block `t` of the layer of the arrays as the kernel finds them. -/
theorem flushed_eq (c : Dev nD) (t : Fin cfg0.N) :
    (dat0 V c).flushed 5 t = ((cfg0.win 5).blk t).view.read (Elt Ideal)
      (hidden (V c main_v33) (V c main_arg0) (V c main_v13) (V c main_v14) (V c main_v19)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  have ht : t.val < 20 := Nat.lt_of_lt_of_eq t.isLt N_0
  have hr : t.val * 5000 + p.val < 100000 := by have := p.isLt; omega
  have he : ((cfg0.win 5).blk t).view.emb (ix2 p q) = ix2 (⟨t.val * 5000 + p.val, hr⟩ : Fin 100000) q := by
    funext a
    apply Fin.ext
    match a with
    | ⟨0, _⟩ => show win0_5.index t 0 * 5000 + 1 * p.val = t.val * 5000 + p.val; rw [e0]; omega
    | ⟨1, _⟩ => show win0_5.index t 1 * 128 + 1 * q.val = q.val; rw [e1]; omega
  show k0_pay1 (iblk0 V c 0 t) (iblk0 V c 1 t) (iblk0 V c 2 t) (iblk0 V c 3 t) (iblk0 V c 4 t) (ix2 p q)
    = hidden (V c main_v33) (V c main_arg0) (V c main_v13) (V c main_v14) (V c main_v19) (((cfg0.win 5).blk t).view.emb (ix2 p q))
  rw [he]
  exact block_apply V c t p q _ rfl

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v34).slice (win0_5.rect t)).set ↔ _
  rw [View.set_slice_whole, Rect.mem_set_unit]
  exact Iff.rfl

/-- Row `r` of the result is written by point `r / 5000`. -/
theorem cover (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 20 := N_0
  let t : Fin cfg0.N := ⟨(i 0).val / 5000, by rw [hN]; omega⟩
  obtain ⟨-, -, -, -, -, -, -, -, -, -, e0, e1⟩ := idx_facts t
  have et : t.val = (i 0).val / 5000 := rfl
  refine ⟨t, flush0_5 t, ?_⟩
  rw [mem_blk]
  intro a
  match a with
  | ⟨0, _⟩ =>
    show win0_5.index t 0 * 5000 ≤ (i 0).val ∧ (i 0).val < win0_5.index t 0 * 5000 + 5000
    rw [e0, et]; omega
  | ⟨1, _⟩ =>
    show win0_5.index t 1 * 128 ≤ (i 1).val ∧ (i 1).val < win0_5.index t 1 * 128 + 128
    rw [e1]; omega

/-- THE RESULT ARRAY after the kernel's twenty points: the hidden layer of the arrays the kernel is entered with. -/
theorem final (c : Dev nD) : (dat0 V c).arrAt 5 cfg0.N
    = hidden (V c main_v33) (V c main_arg0) (V c main_v13) (V c main_v14) (V c main_v19) :=
  (dat0 V c).arrAt_eq_of_cover 5 _ (fun t _ => flushed_eq V c t) cover

end Cert.KernelIdeal.Region0

end
-- ==== Proof.Region1.lean ====
import proofs.«157311_j63359357550605_1_alg».proof.Proof.Gen.KernelIdeal.Frame
import proofs.«157311_j63359357550605_1_alg».proof.Proof.LibTwoInputDense
import Idealize.ShloMosaic.Lib.Pipeline.Value
import Idealize.ShloMosaic.Lib.Tactic

/-!
# The second hidden layer's kernel: the array its twenty row blocks leave

The kernel is launched at twenty grid points. At point `t` it reads rows `5000 t … 5000 t + 4999` of the aggregated
neighbour array and of the first layer's result, the whole of the two transposed weight matrices and of the bias row, and
writes rows `5000 t … 5000 t + 4999` of the result: on that block of rows the two products, the bias and the clamp at
zero. An entry of the layer reads one row of the two inputs, so block `t` of the result is block `t` of the layer
computed on the whole arrays; the twenty blocks tile the hundred thousand rows, so the result array ends holding the
layer of the whole arrays, whatever the contents the kernel is entered with.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Idealize.ShloMosaic.TwoInputDense

variable (V : (c : Dev nD) → (b : Ref sig .tc) → Buf (Elt Ideal) ((c : Thread nD τ).loc b))

theorem hz : (![0, 0] : Fin 2 → Nat) = fun _ => 0 := funext fun a => by fin_cases a <;> rfl

/-- The block indices over the twenty points: the two row inputs and the result move with the point along the rows; the
    weights and the bias are the one block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's stored value at `(p, q)`: the clamped pre-activation of row `p` of its two row blocks. -/
theorem pay_apply (x0 x1 : Vec Ideal S5000x128 .f32) (x2 x3 : Vec Ideal S128x128 .f32) (x4 : Vec Ideal S1x128 .f32)
    (p : Fin 5000) (q : Fin 128) :
    k1_pay1 x0 x1 x2 x3 x4 (ix2 p q) = relu0 (preAt x0 x1 x2 x3 x4 p q) := by
  unfold k1_pay1
  simp only [shapeCast_self]
  exact blockHidden_apply 5000 128 128 x0 x1 x2 x3 x4 _ p q

/-- The aggregated neighbours' block at point `t` is rows `5000 t …` of their array. -/
theorem iblk_agg (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v46 : S100000x128.Idx → Elt Ideal .f32) k := by
  obtain ⟨e0, e1, -⟩ := idx_facts t
  unfold iblk1
  rw [View.read_apply]
  show V c main_v46 _ = V c main_v46 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The first layer's result' block at point `t` is rows `5000 t …` of their array. -/
theorem iblk_root (c : Dev nD) (t : Fin cfg1.N) (x : S5000x128.Idx) (k : S100000x128.Idx)
    (hk0 : (k 0).val = t.val * 5000 + (x 0).val) (hk1 : (k 1).val = (x 1).val) :
    (iblk1 V c 1 t : Vec Ideal S5000x128 .f32) x = (V c main_v34 : S100000x128.Idx → Elt Ideal .f32) k := by
  obtain ⟨-, -, e0, e1, -⟩ := idx_facts t
  unfold iblk1
  rw [View.read_apply]
  show V c main_v34 _ = V c main_v34 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The neighbour weights' one block is their whole array. -/
theorem iblk_wl (c : Dev nD) (t : Fin cfg1.N) :
    (iblk1 V c 2 t : Vec Ideal S128x128 .f32) = (V c main_v15 : S128x128.Idx → Elt Ideal .f32) := by
  obtain ⟨-, -, -, -, e0, e1, -⟩ := idx_facts t
  funext x
  unfold iblk1
  rw [View.read_apply]
  show V c main_v15 _ = V c main_v15 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The root weights' one block is their whole array. -/
theorem iblk_wr (c : Dev nD) (t : Fin cfg1.N) :
    (iblk1 V c 3 t : Vec Ideal S128x128 .f32) = (V c main_v16 : S128x128.Idx → Elt Ideal .f32) := by
  obtain ⟨-, -, -, -, -, -, e0, e1, -⟩ := idx_facts t
  funext x
  unfold iblk1
  rw [View.read_apply]
  show V c main_v16 _ = V c main_v16 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- The bias row's one block is the whole row. -/
theorem iblk_b (c : Dev nD) (t : Fin cfg1.N) :
    (iblk1 V c 4 t : Vec Ideal S1x128 .f32) = (V c main_v20 : S1x128.Idx → Elt Ideal .f32) := by
  obtain ⟨-, -, -, -, -, -, -, -, e0, e1, -⟩ := idx_facts t
  funext x
  unfold iblk1
  rw [View.read_apply]
  show V c main_v20 _ = V c main_v20 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- What point `t` stores at `(p, q)` of its block is the layer of the whole arrays at row `5000 t + p`, column `q`. -/
theorem block_apply (c : Dev nD) (t : Fin cfg1.N) (p : Fin 5000) (q : Fin 128) (r : Fin 100000)
    (hr : r.val = t.val * 5000 + p.val) :
    k1_pay1 (iblk1 V c 0 t) (iblk1 V c 1 t) (iblk1 V c 2 t) (iblk1 V c 3 t) (iblk1 V c 4 t) (ix2 p q)
      = hidden (V c main_v46) (V c main_v34) (V c main_v15) (V c main_v16) (V c main_v20) (ix2 r q) := by
  refine (pay_apply (iblk1 V c 0 t) (iblk1 V c 1 t) (iblk1 V c 2 t) (iblk1 V c 3 t) (iblk1 V c 4 t) p q).trans ?_
  rw [hidden_apply]
  refine congrArg relu0 (preAt_congr _ _ _ _ _ _ _ _ _ _ p r q (fun k => ?_) (fun k => ?_)
    (iblk_wl V c t) (iblk_wr V c t) (iblk_b V c t))
  · exact iblk_agg V c t (ix2 p k) (ix2 r k) hr rfl
  · exact iblk_root V c t (ix2 p k) (ix2 r k) hr rfl

/-- WHAT POINT `t` WRITES BACK is block `t` of the layer of the arrays as the kernel finds them. -/
theorem flushed_eq (c : Dev nD) (t : Fin cfg1.N) :
    (dat1 V c).flushed 5 t = ((cfg1.win 5).blk t).view.read (Elt Ideal)
      (hidden (V c main_v46) (V c main_v34) (V c main_v15) (V c main_v16) (V c main_v20)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  have ht : t.val < 20 := Nat.lt_of_lt_of_eq t.isLt N_1
  have hr : t.val * 5000 + p.val < 100000 := by have := p.isLt; omega
  have he : ((cfg1.win 5).blk t).view.emb (ix2 p q) = ix2 (⟨t.val * 5000 + p.val, hr⟩ : Fin 100000) q := by
    funext a
    apply Fin.ext
    match a with
    | ⟨0, _⟩ => show win1_5.index t 0 * 5000 + 1 * p.val = t.val * 5000 + p.val; rw [e0]; omega
    | ⟨1, _⟩ => show win1_5.index t 1 * 128 + 1 * q.val = q.val; rw [e1]; omega
  show k1_pay1 (iblk1 V c 0 t) (iblk1 V c 1 t) (iblk1 V c 2 t) (iblk1 V c 3 t) (iblk1 V c 4 t) (ix2 p q)
    = hidden (V c main_v46) (V c main_v34) (V c main_v15) (V c main_v16) (V c main_v20) (((cfg1.win 5).blk t).view.emb (ix2 p q))
  rw [he]
  exact block_apply V c t p q _ rfl

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v47).slice (win1_5.rect t)).set ↔ _
  rw [View.set_slice_whole, Rect.mem_set_unit]
  exact Iff.rfl

/-- Row `r` of the result is written by point `r / 5000`. -/
theorem cover (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : cfg1.N = 20 := N_1
  let t : Fin cfg1.N := ⟨(i 0).val / 5000, by rw [hN]; omega⟩
  obtain ⟨-, -, -, -, -, -, -, -, -, -, e0, e1⟩ := idx_facts t
  have et : t.val = (i 0).val / 5000 := rfl
  refine ⟨t, flush1_5 t, ?_⟩
  rw [mem_blk]
  intro a
  match a with
  | ⟨0, _⟩ =>
    show win1_5.index t 0 * 5000 ≤ (i 0).val ∧ (i 0).val < win1_5.index t 0 * 5000 + 5000
    rw [e0, et]; omega
  | ⟨1, _⟩ =>
    show win1_5.index t 1 * 128 ≤ (i 1).val ∧ (i 1).val < win1_5.index t 1 * 128 + 128
    rw [e1]; omega

/-- THE RESULT ARRAY after the kernel's twenty points: the hidden layer of the arrays the kernel is entered with. -/
theorem final (c : Dev nD) : (dat1 V c).arrAt 5 cfg1.N
    = hidden (V c main_v46) (V c main_v34) (V c main_v15) (V c main_v16) (V c main_v20) :=
  (dat1 V c).arrAt_eq_of_cover 5 _ (fun t _ => flushed_eq V c t) cover

end Cert.KernelIdeal.Region1

end
-- ==== Proof.Region2.lean ====
import proofs.«157311_j63359357550605_1_alg».proof.Proof.Gen.KernelIdeal.Frame
import proofs.«157311_j63359357550605_1_alg».proof.Proof.LibTwoInputDense
import Idealize.ShloMosaic.Lib.Pipeline.Value
import Idealize.ShloMosaic.Lib.Tactic

/-!
# The output layer's kernel: the array its twenty row blocks leave

The kernel is launched at twenty grid points. At point `t` it reads rows `5000 t … 5000 t + 4999` of the aggregated
neighbour array and of the second hidden layer's result, the whole of the two transposed weight matrices (128 × 40) and
of the bias row, and writes rows `5000 t … 5000 t + 4999` of the result: on that block of rows the two products and the
bias, then the log-softmax of each row of forty numbers. A row of the result reads one row of the two inputs, so block
`t` of the result is block `t` of the layer computed on the whole arrays; the twenty blocks tile the hundred thousand
rows, so the result array ends holding the output layer of the whole arrays.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Idealize.ShloMosaic.TwoInputDense

variable (V : (c : Dev nD) → (b : Ref sig .tc) → Buf (Elt Ideal) ((c : Thread nD τ).loc b))

theorem hz : (![0, 0] : Fin 2 → Nat) = fun _ => 0 := funext fun a => by fin_cases a <;> rfl

/-- The block indices over the twenty points: the two row inputs and the result move with the point along the rows; the
    weights and the bias are the one block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's stored value at `(p, q)`: entry `q` of the log-softmax of row `p`'s forty pre-activations. -/
theorem pay_apply (x0 x1 : Vec Ideal S5000x128 .f32) (x2 x3 : Vec Ideal S128x40 .f32) (x4 : Vec Ideal S1x40 .f32)
    (p : Fin 5000) (q : Fin 40) :
    k2_pay1 x0 x1 x2 x3 x4 (ix2 p q) = logSoftmaxRow (fun k => preAt x0 x1 x2 x3 x4 p k) q := by
  unfold k2_pay1
  simp only [shapeCast_self]
  refine (blockLogSoftmax_apply 5000 40 _ _ _ _ _ _ _ p q).trans ?_
  refine congrArg (fun z => logSoftmaxRow z q) (funext fun k => ?_)
  exact blockPre_apply 5000 128 40 x0 x1 x2 x3 x4 _ p k

/-- The aggregated neighbours' block at point `t` is rows `5000 t …` of their array. -/
theorem iblk_agg (c : Dev nD) (t : Fin cfg2.N) (x : S5000x128.Idx) (k : S100000x128.Idx)
    (hk0 : (k 0).val = t.val * 5000 + (x 0).val) (hk1 : (k 1).val = (x 1).val) :
    (iblk2 V c 0 t : Vec Ideal S5000x128 .f32) x = (V c main_v59 : S100000x128.Idx → Elt Ideal .f32) k := by
  obtain ⟨e0, e1, -⟩ := idx_facts t
  unfold iblk2
  rw [View.read_apply]
  show V c main_v59 _ = V c main_v59 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The second hidden layer's block at point `t` is rows `5000 t …` of its array. -/
theorem iblk_root (c : Dev nD) (t : Fin cfg2.N) (x : S5000x128.Idx) (k : S100000x128.Idx)
    (hk0 : (k 0).val = t.val * 5000 + (x 0).val) (hk1 : (k 1).val = (x 1).val) :
    (iblk2 V c 1 t : Vec Ideal S5000x128 .f32) x = (V c main_v47 : S100000x128.Idx → Elt Ideal .f32) k := by
  obtain ⟨-, -, e0, e1, -⟩ := idx_facts t
  unfold iblk2
  rw [View.read_apply]
  show V c main_v47 _ = V c main_v47 _
  congr 1
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- The neighbour weights' one block is their whole array. -/
theorem iblk_wl (c : Dev nD) (t : Fin cfg2.N) :
    (iblk2 V c 2 t : Vec Ideal S128x40 .f32) = (V c main_v17 : S128x40.Idx → Elt Ideal .f32) := by
  obtain ⟨-, -, -, -, e0, e1, -⟩ := idx_facts t
  funext x
  unfold iblk2
  rw [View.read_apply]
  show V c main_v17 _ = V c main_v17 _
  congr 1
  funext a
  apply Fin.ext
  match a with
  | ⟨0, _⟩ => show win2_2.index t 0 * 128 + 1 * (x 0).val = (x 0).val; rw [e0]; omega
  | ⟨1, _⟩ => show win2_2.index t 1 * 40 + 1 * (x 1).val = (x 1).val; rw [e1]; omega

/-- The root weights' one block is their whole array. -/
theorem iblk_wr (c : Dev nD) (t : Fin cfg2.N) :
    (iblk2 V c 3 t : Vec Ideal S128x40 .f32) = (V c main_v18 : S128x40.Idx → Elt Ideal .f32) := by
  obtain ⟨-, -, -, -, -, -, e0, e1, -⟩ := idx_facts t
  funext x
  unfold iblk2
  rw [View.read_apply]
  show V c main_v18 _ = V c main_v18 _
  congr 1
  funext a
  apply Fin.ext
  match a with
  | ⟨0, _⟩ => show win2_3.index t 0 * 128 + 1 * (x 0).val = (x 0).val; rw [e0]; omega
  | ⟨1, _⟩ => show win2_3.index t 1 * 40 + 1 * (x 1).val = (x 1).val; rw [e1]; omega

/-- The bias row's one block is the whole row. -/
theorem iblk_b (c : Dev nD) (t : Fin cfg2.N) :
    (iblk2 V c 4 t : Vec Ideal S1x40 .f32) = (V c main_v21 : S1x40.Idx → Elt Ideal .f32) := by
  obtain ⟨-, -, -, -, -, -, -, -, e0, e1, -⟩ := idx_facts t
  funext x
  unfold iblk2
  rw [View.read_apply]
  show V c main_v21 _ = V c main_v21 _
  congr 1
  funext a
  apply Fin.ext
  match a with
  | ⟨0, _⟩ => show win2_4.index t 0 * 1 + 1 * (x 0).val = (x 0).val; rw [e0]; omega
  | ⟨1, _⟩ => show win2_4.index t 1 * 40 + 1 * (x 1).val = (x 1).val; rw [e1]; omega

/-- What point `t` stores at `(p, q)` of its block is the output layer of the whole arrays at row `5000 t + p`, column `q`. -/
theorem block_apply (c : Dev nD) (t : Fin cfg2.N) (p : Fin 5000) (q : Fin 40) (r : Fin 100000)
    (hr : r.val = t.val * 5000 + p.val) :
    k2_pay1 (iblk2 V c 0 t) (iblk2 V c 1 t) (iblk2 V c 2 t) (iblk2 V c 3 t) (iblk2 V c 4 t) (ix2 p q)
      = output (V c main_v59) (V c main_v47) (V c main_v17) (V c main_v18) (V c main_v21) (ix2 r q) := by
  refine (pay_apply (iblk2 V c 0 t) (iblk2 V c 1 t) (iblk2 V c 2 t) (iblk2 V c 3 t) (iblk2 V c 4 t) p q).trans ?_
  rw [output_apply]
  refine congrArg (fun z => logSoftmaxRow z q) (funext fun k' => ?_)
  exact preAt_congr _ _ _ _ _ _ _ _ _ _ p r k'
    (fun k => iblk_agg V c t (ix2 p k) (ix2 r k) hr rfl) (fun k => iblk_root V c t (ix2 p k) (ix2 r k) hr rfl)
    (iblk_wl V c t) (iblk_wr V c t) (iblk_b V c t)

/-- WHAT POINT `t` WRITES BACK is block `t` of the layer of the arrays as the kernel finds them. -/
theorem flushed_eq (c : Dev nD) (t : Fin cfg2.N) :
    (dat2 V c).flushed 5 t = ((cfg2.win 5).blk t).view.read (Elt Ideal)
      (output (V c main_v59) (V c main_v47) (V c main_v17) (V c main_v18) (V c main_v21)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x40) hz, View.ld_unit_zero (S := S1x40) hz]
  obtain ⟨-, -, -, -, -, -, -, -, -, -, e0, e1⟩ := idx_facts t
  funext j
  obtain ⟨p, q, rfl⟩ : ∃ (p : Fin 5000) (q : Fin 40), j = ix2 p q := ⟨j 0, j 1, eq_ix2 j⟩
  have ht : t.val < 20 := Nat.lt_of_lt_of_eq t.isLt N_2
  have hr : t.val * 5000 + p.val < 100000 := by have := p.isLt; omega
  have he : ((cfg2.win 5).blk t).view.emb (ix2 p q) = ix2 (⟨t.val * 5000 + p.val, hr⟩ : Fin 100000) q := by
    funext a
    apply Fin.ext
    match a with
    | ⟨0, _⟩ => show win2_5.index t 0 * 5000 + 1 * p.val = t.val * 5000 + p.val; rw [e0]; omega
    | ⟨1, _⟩ => show win2_5.index t 1 * 40 + 1 * q.val = q.val; rw [e1]; omega
  show k2_pay1 (iblk2 V c 0 t) (iblk2 V c 1 t) (iblk2 V c 2 t) (iblk2 V c 3 t) (iblk2 V c 4 t) (ix2 p q)
    = output (V c main_v59) (V c main_v47) (V c main_v17) (V c main_v18) (V c main_v21) (((cfg2.win 5).blk t).view.emb (ix2 p q))
  rw [he]
  exact block_apply V c t p q _ rfl

/-- An index of the result array is in point `t`'s block iff each coordinate is in the block's range on its axis. -/
theorem mem_blk (t : Fin cfg2.N) (i : S100000x40.Idx) :
    i ∈ ((cfg2.win 5).blk t).view.set ↔ ∀ a : Fin 2, win2_5.index t a * S5000x40.size a ≤ (i a).val
      ∧ (i a).val < win2_5.index t a * S5000x40.size a + S5000x40.size a := by
  show i ∈ ((View.whole main_v60).slice (win2_5.rect t)).set ↔ _
  rw [View.set_slice_whole, Rect.mem_set_unit]
  exact Iff.rfl

/-- Row `r` of the result is written by point `r / 5000`. -/
theorem cover (i : S100000x40.Idx) :
    ∃ t : Fin cfg2.N, (cfg2.win 5).flush t = true ∧ i ∈ ((cfg2.win 5).blk t).view.set := by
  have h0 : (i 0).val < 100000 := (i 0).isLt
  have h1 : (i 1).val < 40 := (i 1).isLt
  have hN : cfg2.N = 20 := N_2
  let t : Fin cfg2.N := ⟨(i 0).val / 5000, by rw [hN]; omega⟩
  obtain ⟨-, -, -, -, -, -, -, -, -, -, e0, e1⟩ := idx_facts t
  have et : t.val = (i 0).val / 5000 := rfl
  refine ⟨t, flush2_5 t, ?_⟩
  rw [mem_blk]
  intro a
  match a with
  | ⟨0, _⟩ =>
    show win2_5.index t 0 * 5000 ≤ (i 0).val ∧ (i 0).val < win2_5.index t 0 * 5000 + 5000
    rw [e0, et]; omega
  | ⟨1, _⟩ =>
    show win2_5.index t 1 * 40 ≤ (i 1).val ∧ (i 1).val < win2_5.index t 1 * 40 + 40
    rw [e1]; omega

/-- THE RESULT ARRAY after the kernel's twenty points: the output layer of the arrays the kernel is entered with. -/
theorem final (c : Dev nD) : (dat2 V c).arrAt 5 cfg2.N
    = output (V c main_v59) (V c main_v47) (V c main_v17) (V c main_v18) (V c main_v21) :=
  (dat2 V c).arrAt_eq_of_cover 5 _ (fun t _ => flushed_eq V c t) cover

end Cert.KernelIdeal.Region2

end
-- ==== Proof.KValue.lean ====
import proofs.«157311_j63359357550605_1_alg».proof.Proof.Gen.KernelIdeal.Frame
import proofs.«157311_j63359357550605_1_alg».proof.Proof.KStretch
import proofs.«157311_j63359357550605_1_alg».proof.Proof.Region0
import proofs.«157311_j63359357550605_1_alg».proof.Proof.Region1
import proofs.«157311_j63359357550605_1_alg».proof.Proof.Region2
import proofs.«157311_j63359357550605_1_alg».proof.Proof.KRun

/-!
# The kernel program's result: the three layers composed

The program's run passes six boundaries: a stretch of whole-array operations, then a kernel, three times over. At each
boundary the contents of every buffer a later step reads are followed here: what a stretch computes (its result read
from the contents it starts from), what a kernel leaves (its result array is the layer of the arrays it is entered
with; every other buffer is untouched), and what neither writes. The edge list's rows, the reciprocal column, the
transposed weights and the bias rows are computed once, before the first kernel, and only carried afterwards. At the
last boundary the result buffer holds the output layer of the second hidden layer of the first hidden layer of the
features: the network as one function of the arguments.
-/

set_option maxRecDepth 16384

noncomputable section

namespace Cert.KernelIdeal.KValue

open Cert.KernelIdeal Cert.KernelIdeal.Gen Cert.KernelIdeal.Layers Cert.KernelIdeal.KStretch
open Idealize.ShloMosaic Idealize.ShloMosaic.TcCoe Idealize.SL.Sem Idealize.ShloMosaic.TwoInputDense

variable (m : (ℓ : Loc nD τ sig) → Buf (Elt Ideal) ℓ) (ρ : Dev nD → PrngReg) (c : Dev nD)

/-! ## Equal inputs give equal layers -/

theorem hidden_congr {R K N : Nat} {A A' X X' : (⟨2, ![R, K]⟩ : Shape).Idx → EReal}
    {Wl Wl' Wr Wr' : (⟨2, ![K, N]⟩ : Shape).Idx → EReal} {b b' : (⟨2, ![1, N]⟩ : Shape).Idx → EReal}
    (hA : A = A') (hX : X = X') (hl : Wl = Wl') (hr : Wr = Wr') (hb : b = b') :
    hidden A X Wl Wr b = hidden A' X' Wl' Wr' b' := by subst hA hX hl hr hb; rfl

theorem output_congr {R K N : Nat} {A A' X X' : (⟨2, ![R, K]⟩ : Shape).Idx → EReal}
    {Wl Wl' Wr Wr' : (⟨2, ![K, N]⟩ : Shape).Idx → EReal} {b b' : (⟨2, ![1, N]⟩ : Shape).Idx → EReal}
    (hA : A = A') (hX : X = X') (hl : Wl = Wl') (hr : Wr = Wr') (hb : b = b') :
    output A X Wl Wr b = output A' X' Wl' Wr' b' := by subst hA hX hl hr hb; rfl

/-- Sums scaled by a column that is the reciprocal column of the destinations are the scaled aggregate. -/
theorem scaled_congr {s s' d d' : IVec S800000 32} {H H' : FVec Ideal S100000x128 .f32} {col : FVec Ideal S100000x1 .f32}
    (hs : s = s') (hd : d = d') (hH : H = H') (hc : col = invCol (F := Ideal) d') :
    mulf (nbrSum (F := Ideal) s d H) (broadcastInDim S100000x128 ![0, 1] bcast_S100000x1_S100000x128_0_1 col) = aggScaled (F := Ideal) s' d' H' := by
  subst hs hd hH hc; rfl

/-! ## Before the first kernel -/

theorem W1_v1 : W1 m ρ c (Proc.devRef .tc main_v1) = (srcIds (m ((c : Thread nD τ).loc main_arg1))) := s0_v1 (W0 m ρ c)
theorem W1_v3 : W1 m ρ c (Proc.devRef .tc main_v3) = (dstIds (m ((c : Thread nD τ).loc main_arg1))) := s0_v3 (W0 m ρ c)
theorem W1_v12 : W1 m ρ c (Proc.devRef .tc main_v12) = (invCol (F := Ideal) (dstIds (m ((c : Thread nD τ).loc main_arg1)))) := s0_v12 (W0 m ρ c)
theorem W1_v15 : W1 m ρ c (Proc.devRef .tc main_v15) = (tr128 (F := Ideal) (m ((c : Thread nD τ).loc main_arg5))) := s0_v15 (W0 m ρ c)
theorem W1_v16 : W1 m ρ c (Proc.devRef .tc main_v16) = (tr128 (F := Ideal) (m ((c : Thread nD τ).loc main_arg6))) := s0_v16 (W0 m ρ c)
theorem W1_v20 : W1 m ρ c (Proc.devRef .tc main_v20) = (row128 (F := Ideal) (m ((c : Thread nD τ).loc main_arg7))) := s0_v20 (W0 m ρ c)
theorem W1_v17 : W1 m ρ c (Proc.devRef .tc main_v17) = (tr40 (F := Ideal) (m ((c : Thread nD τ).loc main_arg8))) := s0_v17 (W0 m ρ c)
theorem W1_v18 : W1 m ρ c (Proc.devRef .tc main_v18) = (tr40 (F := Ideal) (m ((c : Thread nD τ).loc main_arg9))) := s0_v18 (W0 m ρ c)
theorem W1_v21 : W1 m ρ c (Proc.devRef .tc main_v21) = (row40 (F := Ideal) (m ((c : Thread nD τ).loc main_arg10))) := s0_v21 (W0 m ρ c)
theorem W1_v13 : W1 m ρ c (Proc.devRef .tc main_v13) = tr128 (F := Ideal) (m ((c : Thread nD τ).loc main_arg2)) := s0_v13 (W0 m ρ c)
theorem W1_v14 : W1 m ρ c (Proc.devRef .tc main_v14) = tr128 (F := Ideal) (m ((c : Thread nD τ).loc main_arg3)) := s0_v14 (W0 m ρ c)
theorem W1_v19 : W1 m ρ c (Proc.devRef .tc main_v19) = row128 (F := Ideal) (m ((c : Thread nD τ).loc main_arg4)) := s0_v19 (W0 m ρ c)
theorem W1_v33 : W1 m ρ c (Proc.devRef .tc main_v33) = aggScaled (F := Ideal) (srcIds (m ((c : Thread nD τ).loc main_arg1))) (dstIds (m ((c : Thread nD τ).loc main_arg1))) (m ((c : Thread nD τ).loc main_arg0)) := s0_v33 (W0 m ρ c)
theorem W1_arg0 : W1 m ρ c (Proc.devRef .tc main_arg0) = (m ((c : Thread nD τ).loc main_arg0)) := s0_keep_arg0 (W0 m ρ c)

/-! ## After the first kernel -/

/-- The first kernel leaves the first hidden layer of the features. -/
theorem W2_v34 : W2 m ρ c (Proc.devRef .tc main_v34) = (layerHidden (srcIds (m ((c : Thread nD τ).loc main_arg1))) (dstIds (m ((c : Thread nD τ).loc main_arg1))) (m ((c : Thread nD τ).loc main_arg0)) (m ((c : Thread nD τ).loc main_arg2)) (m ((c : Thread nD τ).loc main_arg3)) (m ((c : Thread nD τ).loc main_arg4))) :=
  (W2_arr m ρ c 5).trans ((Region0.final (V1 m ρ) c).trans
    (hidden_congr (W1_v33 m ρ c) (W1_arg0 m ρ c) (W1_v13 m ρ c) (W1_v14 m ρ c) (W1_v19 m ρ c)))
theorem W2_v1 : W2 m ρ c (Proc.devRef .tc main_v1) = (srcIds (m ((c : Thread nD τ).loc main_arg1))) := (W2_of_ne m ρ c main_v1 (by decide)).trans (W1_v1 m ρ c)
theorem W2_v3 : W2 m ρ c (Proc.devRef .tc main_v3) = (dstIds (m ((c : Thread nD τ).loc main_arg1))) := (W2_of_ne m ρ c main_v3 (by decide)).trans (W1_v3 m ρ c)
theorem W2_v12 : W2 m ρ c (Proc.devRef .tc main_v12) = (invCol (F := Ideal) (dstIds (m ((c : Thread nD τ).loc main_arg1)))) := (W2_of_ne m ρ c main_v12 (by decide)).trans (W1_v12 m ρ c)
theorem W2_v15 : W2 m ρ c (Proc.devRef .tc main_v15) = (tr128 (F := Ideal) (m ((c : Thread nD τ).loc main_arg5))) := (W2_of_ne m ρ c main_v15 (by decide)).trans (W1_v15 m ρ c)
theorem W2_v16 : W2 m ρ c (Proc.devRef .tc main_v16) = (tr128 (F := Ideal) (m ((c : Thread nD τ).loc main_arg6))) := (W2_of_ne m ρ c main_v16 (by decide)).trans (W1_v16 m ρ c)
theorem W2_v20 : W2 m ρ c (Proc.devRef .tc main_v20) = (row128 (F := Ideal) (m ((c : Thread nD τ).loc main_arg7))) := (W2_of_ne m ρ c main_v20 (by decide)).trans (W1_v20 m ρ c)
theorem W2_v17 : W2 m ρ c (Proc.devRef .tc main_v17) = (tr40 (F := Ideal) (m ((c : Thread nD τ).loc main_arg8))) := (W2_of_ne m ρ c main_v17 (by decide)).trans (W1_v17 m ρ c)
theorem W2_v18 : W2 m ρ c (Proc.devRef .tc main_v18) = (tr40 (F := Ideal) (m ((c : Thread nD τ).loc main_arg9))) := (W2_of_ne m ρ c main_v18 (by decide)).trans (W1_v18 m ρ c)
theorem W2_v21 : W2 m ρ c (Proc.devRef .tc main_v21) = (row40 (F := Ideal) (m ((c : Thread nD τ).loc main_arg10))) := (W2_of_ne m ρ c main_v21 (by decide)).trans (W1_v21 m ρ c)

/-! ## Before the second kernel -/

theorem W3_v46 : W3 m ρ c (Proc.devRef .tc main_v46) = aggScaled (F := Ideal) (srcIds (m ((c : Thread nD τ).loc main_arg1))) (dstIds (m ((c : Thread nD τ).loc main_arg1))) (layerHidden (srcIds (m ((c : Thread nD τ).loc main_arg1))) (dstIds (m ((c : Thread nD τ).loc main_arg1))) (m ((c : Thread nD τ).loc main_arg0)) (m ((c : Thread nD τ).loc main_arg2)) (m ((c : Thread nD τ).loc main_arg3)) (m ((c : Thread nD τ).loc main_arg4))) :=
  (s1_v46 (W2 m ρ c)).trans (scaled_congr (W2_v1 m ρ c) (W2_v3 m ρ c) (W2_v34 m ρ c) (W2_v12 m ρ c))
theorem W3_v34 : W3 m ρ c (Proc.devRef .tc main_v34) = (layerHidden (srcIds (m ((c : Thread nD τ).loc main_arg1))) (dstIds (m ((c : Thread nD τ).loc main_arg1))) (m ((c : Thread nD τ).loc main_arg0)) (m ((c : Thread nD τ).loc main_arg2)) (m ((c : Thread nD τ).loc main_arg3)) (m ((c : Thread nD τ).loc main_arg4))) := (s1_keep_v34 (W2 m ρ c)).trans (W2_v34 m ρ c)
theorem W3_v1 : W3 m ρ c (Proc.devRef .tc main_v1) = (srcIds (m ((c : Thread nD τ).loc main_arg1))) := (s1_keep_v1 (W2 m ρ c)).trans (W2_v1 m ρ c)
theorem W3_v3 : W3 m ρ c (Proc.devRef .tc main_v3) = (dstIds (m ((c : Thread nD τ).loc main_arg1))) := (s1_keep_v3 (W2 m ρ c)).trans (W2_v3 m ρ c)
theorem W3_v12 : W3 m ρ c (Proc.devRef .tc main_v12) = (invCol (F := Ideal) (dstIds (m ((c : Thread nD τ).loc main_arg1)))) := (s1_keep_v12 (W2 m ρ c)).trans (W2_v12 m ρ c)
theorem W3_v15 : W3 m ρ c (Proc.devRef .tc main_v15) = (tr128 (F := Ideal) (m ((c : Thread nD τ).loc main_arg5))) := (s1_keep_v15 (W2 m ρ c)).trans (W2_v15 m ρ c)
theorem W3_v16 : W3 m ρ c (Proc.devRef .tc main_v16) = (tr128 (F := Ideal) (m ((c : Thread nD τ).loc main_arg6))) := (s1_keep_v16 (W2 m ρ c)).trans (W2_v16 m ρ c)
theorem W3_v20 : W3 m ρ c (Proc.devRef .tc main_v20) = (row128 (F := Ideal) (m ((c : Thread nD τ).loc main_arg7))) := (s1_keep_v20 (W2 m ρ c)).trans (W2_v20 m ρ c)
theorem W3_v17 : W3 m ρ c (Proc.devRef .tc main_v17) = (tr40 (F := Ideal) (m ((c : Thread nD τ).loc main_arg8))) := (s1_keep_v17 (W2 m ρ c)).trans (W2_v17 m ρ c)
theorem W3_v18 : W3 m ρ c (Proc.devRef .tc main_v18) = (tr40 (F := Ideal) (m ((c : Thread nD τ).loc main_arg9))) := (s1_keep_v18 (W2 m ρ c)).trans (W2_v18 m ρ c)
theorem W3_v21 : W3 m ρ c (Proc.devRef .tc main_v21) = (row40 (F := Ideal) (m ((c : Thread nD τ).loc main_arg10))) := (s1_keep_v21 (W2 m ρ c)).trans (W2_v21 m ρ c)

/-! ## After the second kernel -/

/-- The second kernel leaves the second hidden layer. -/
theorem W4_v47 : W4 m ρ c (Proc.devRef .tc main_v47) = (layerHidden (srcIds (m ((c : Thread nD τ).loc main_arg1))) (dstIds (m ((c : Thread nD τ).loc main_arg1))) (layerHidden (srcIds (m ((c : Thread nD τ).loc main_arg1))) (dstIds (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (W4_arr m ρ c 5).trans ((Region1.final (V3 m ρ) c).trans
    (hidden_congr (W3_v46 m ρ c) (W3_v34 m ρ c) (W3_v15 m ρ c) (W3_v16 m ρ c) (W3_v20 m ρ c)))
theorem W4_v1 : W4 m ρ c (Proc.devRef .tc main_v1) = (srcIds (m ((c : Thread nD τ).loc main_arg1))) := (W4_of_ne m ρ c main_v1 (by decide)).trans (W3_v1 m ρ c)
theorem W4_v3 : W4 m ρ c (Proc.devRef .tc main_v3) = (dstIds (m ((c : Thread nD τ).loc main_arg1))) := (W4_of_ne m ρ c main_v3 (by decide)).trans (W3_v3 m ρ c)
theorem W4_v12 : W4 m ρ c (Proc.devRef .tc main_v12) = (invCol (F := Ideal) (dstIds (m ((c : Thread nD τ).loc main_arg1)))) := (W4_of_ne m ρ c main_v12 (by decide)).trans (W3_v12 m ρ c)
theorem W4_v17 : W4 m ρ c (Proc.devRef .tc main_v17) = (tr40 (F := Ideal) (m ((c : Thread nD τ).loc main_arg8))) := (W4_of_ne m ρ c main_v17 (by decide)).trans (W3_v17 m ρ c)
theorem W4_v18 : W4 m ρ c (Proc.devRef .tc main_v18) = (tr40 (F := Ideal) (m ((c : Thread nD τ).loc main_arg9))) := (W4_of_ne m ρ c main_v18 (by decide)).trans (W3_v18 m ρ c)
theorem W4_v21 : W4 m ρ c (Proc.devRef .tc main_v21) = (row40 (F := Ideal) (m ((c : Thread nD τ).loc main_arg10))) := (W4_of_ne m ρ c main_v21 (by decide)).trans (W3_v21 m ρ c)

/-! ## Before the third kernel -/

theorem W5_v59 : W5 m ρ c (Proc.devRef .tc main_v59) = aggScaled (F := Ideal) (srcIds (m ((c : Thread nD τ).loc main_arg1))) (dstIds (m ((c : Thread nD τ).loc main_arg1))) (layerHidden (srcIds (m ((c : Thread nD τ).loc main_arg1))) (dstIds (m ((c : Thread nD τ).loc main_arg1))) (layerHidden (srcIds (m ((c : Thread nD τ).loc main_arg1))) (dstIds (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (s2_v59 (W4 m ρ c)).trans (scaled_congr (W4_v1 m ρ c) (W4_v3 m ρ c) (W4_v47 m ρ c) (W4_v12 m ρ c))
theorem W5_v47 : W5 m ρ c (Proc.devRef .tc main_v47) = (layerHidden (srcIds (m ((c : Thread nD τ).loc main_arg1))) (dstIds (m ((c : Thread nD τ).loc main_arg1))) (layerHidden (srcIds (m ((c : Thread nD τ).loc main_arg1))) (dstIds (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (s2_keep_v47 (W4 m ρ c)).trans (W4_v47 m ρ c)
theorem W5_v17 : W5 m ρ c (Proc.devRef .tc main_v17) = (tr40 (F := Ideal) (m ((c : Thread nD τ).loc main_arg8))) := (s2_keep_v17 (W4 m ρ c)).trans (W4_v17 m ρ c)
theorem W5_v18 : W5 m ρ c (Proc.devRef .tc main_v18) = (tr40 (F := Ideal) (m ((c : Thread nD τ).loc main_arg9))) := (s2_keep_v18 (W4 m ρ c)).trans (W4_v18 m ρ c)
theorem W5_v21 : W5 m ρ c (Proc.devRef .tc main_v21) = (row40 (F := Ideal) (m ((c : Thread nD τ).loc main_arg10))) := (s2_keep_v21 (W4 m ρ c)).trans (W4_v21 m ρ c)

/-! ## After the third kernel: the result -/

/-- THE RESULT BUFFER at the last boundary holds the network of the arguments. -/
theorem W6_v60 : W6 m ρ c (Proc.devRef .tc main_v60)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 5).trans ((Region2.final (V5 m ρ) c).trans
    (output_congr (W5_v59 m ρ c) (W5_v47 m ρ c) (W5_v17 m ρ c) (W5_v18 m ρ c) (W5_v21 m ρ c)))

/-- The run of the kernel program, read: every weakly fair execution terminates, nothing faulting, with the result
    array at the network of the arguments and the arguments as launched. -/
theorem run : θ_run defs (onTc (τ := τ) (main (F := Ideal))) ⟨m, fun _ => 0, ρ⟩ (fun r => ∀ c : Dev nD,
      r.2.mem ((c.tc : Thread nD τ).loc main_v60)
        = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W6_v60 m ρ c), (h c).2⟩) (RunNamed.run_named m ρ)

end Cert.KernelIdeal.KValue

end
-- ==== Proof.lean ====
/- A three-layer mean-aggregating graph network on 100000 nodes and 800000 edges, its dense layers run as kernels on
   blocks of 5000 rows, against the same network written with whole-array operations.

   Each layer gathers the feature rows of the edges' sources, adds them onto the rows of the edges' destinations, and
   turns the sums into means over the in-degree clamped below by one; a dense layer then takes the mean and the node's
   own row to `mean · Wlᵀ + own · Wrᵀ + b`, clamped at zero in the two hidden layers and followed by the log-softmax of
   each row of forty numbers in the last. The kernel's program computes the reciprocal of the clamped degree once and
   multiplies every layer's sums by it; the reference divides by the clamped degree in every layer. Over the extended
   reals the quotient by a number that is not zero is the product with its reciprocal, and a degree clamped below by
   one is never zero, so the two means are one array, with no finiteness assumption. A dense layer's entry reads one
   row of its two inputs, so the twenty row blocks a kernel writes are the blocks of the layer computed on whole
   arrays, and they tile the rows. The reference's maximum of a row, taken from minus infinity and joined once more
   with minus infinity, is the kernel's lane maximum from minus infinity; its row sum from zero is the kernel's lane
   sum. So both programs end with the one function `Layers.network` of the arguments.

   The frames of the two kernel programs are the generated ones; the reference's frame is its run with the result
   dropped; the kernel's idealization rewrote nothing. -/
import proofs.«157311_j63359357550605_1_alg».proof.Defs
import proofs.«157311_j63359357550605_1_alg».proof.Proof.Gen.Kernel
import proofs.«157311_j63359357550605_1_alg».proof.Proof.Gen.Kernel.Frame
import proofs.«157311_j63359357550605_1_alg».proof.Proof.Gen.KernelIdeal
import proofs.«157311_j63359357550605_1_alg».proof.Proof.Gen.KernelIdeal.Frame
import proofs.«157311_j63359357550605_1_alg».proof.Proof.Gen.ReferenceIdeal
import proofs.«157311_j63359357550605_1_alg».proof.Proof.Gen.Pre_finite_inputs
import proofs.«157311_j63359357550605_1_alg».proof.Proof.KValue
import proofs.«157311_j63359357550605_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.ValueP.run m ρ)

/-- Both programs end with the network of the arguments: the kernel program's three kernels leave it block by block,
    the reference's whole-array operations are it entry by entry, and the two ways of taking the neighbours' mean
    agree. -/
theorem algebraic : Cert.algebraic_KernelIdeal_ReferenceIdeal := by
  intro m ρ m' ρ' _ hagree
  refine ⟨fun c => Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KValue.run m ρ, ?_⟩
  refine (θ_run Cert.ReferenceIdeal.defs _ _).mono (fun _ h c => ⟨(h c).1.trans ?_, (h c).2⟩)
    (Cert.ReferenceIdeal.ValueP.run m' ρ')
  obtain ⟨e0, e1, e2, e3, e4, e5, e6, e7, e8, e9, e10⟩ := hagree c
  rw [e0, e1, e2, e3, e4, e5, e6, e7, e8, e9, e10]
  exact Cert.KernelIdeal.Layers.hostNetwork_eq _ _ _ _ _ _ _ _ _ _ _

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
